-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x192x192x192 : Shape := ⟨5, ![4, 1, 192, 192, 192]⟩
abbrev S_ : Shape := ⟨0, ![]⟩

class Facts : Prop where
  bcast_S_S4x1x192x192x192 : S_.BroadcastsInDim S4x1x192x192x192 (![] : Fin 0 → Fin S4x1x192x192x192.rank)
  reducesTo_S4x1x192x192x192_S_d0_1_2_3_4 : S4x1x192x192x192.ReducesTo [0, 1, 2, 3, 4] S_
  h_S_ : 0 < S_.numel

variable [Facts]

def fn {F : FTy → Type} [FloatOps F] (main_arg0 : FVec F S4x1x192x192x192 .f32) : IVec S_ 1 :=
  let main_v0 : FVec F S4x1x192x192x192 .f32 := Host.absf main_arg0
  let main_cst : FVec F S_ .f32 := constant S_ .f32 0x7F800000#32
  let main_v1 : FVec F S4x1x192x192x192 .f32 := broadcastInDim S4x1x192x192x192 ![] bcast_S_S4x1x192x192x192 main_cst
  let main_v2 : IVec S4x1x192x192x192 1 := cmpf .olt main_v0 main_v1
  let main_c : IVec S_ 1 := constantI S_ 1 1#1
  let main_v3 : IVec S_ 1 := (fun x v => Host.reduce IntOp.andi x v reducesTo_S4x1x192x192x192_S_d0_1_2_3_4 h_S_) main_v2 main_c
  main_v3
-- ==== Kernel.lean ====
abbrev S4x1x192x192x192 : Shape := ⟨5, ![4, 1, 192, 192, 192]⟩
abbrev S4x192x192x192 : Shape := ⟨4, ![4, 192, 192, 192]⟩
abbrev S1x24x192x192 : Shape := ⟨4, ![1, 24, 192, 192]⟩
abbrev S1x1x192x192 : Shape := ⟨4, ![1, 1, 192, 192]⟩
abbrev S1x24x1x192 : Shape := ⟨4, ![1, 24, 1, 192]⟩
abbrev S1x24x192x1 : Shape := ⟨4, ![1, 24, 192, 1]⟩
abbrev S1x23x192x192 : Shape := ⟨4, ![1, 23, 192, 192]⟩

abbrev nBuf : Space → Nat
  | .hbm => 4
  | .vmem => 8
  | .smem => 0
  | _ => 0

abbrev bufTy : (tb : Table) → Fin (tcTables nBuf tb) → BufTy
  | .hbm, ⟨0, _⟩ => ⟨S4x1x192x192x192, .f32⟩
  | .hbm, ⟨1, _⟩ => ⟨S4x192x192x192, .f32⟩
  | .hbm, ⟨2, _⟩ => ⟨S4x192x192x192, .f32⟩
  | .hbm, ⟨3, _⟩ => ⟨S4x1x192x192x192, .f32⟩
  | .local _ .vmem, ⟨0, _⟩ => ⟨S1x24x192x192, .f32⟩
  | .local _ .vmem, ⟨1, _⟩ => ⟨S1x24x192x192, .f32⟩
  | .local _ .vmem, ⟨2, _⟩ => ⟨S1x1x192x192, .f32⟩
  | .local _ .vmem, ⟨3, _⟩ => ⟨S1x1x192x192, .f32⟩
  | .local _ .vmem, ⟨4, _⟩ => ⟨S1x1x192x192, .f32⟩
  | .local _ .vmem, ⟨5, _⟩ => ⟨S1x1x192x192, .f32⟩
  | .local _ .vmem, ⟨6, _⟩ => ⟨S1x24x192x192, .f32⟩
  | .local _ .vmem, ⟨7, _⟩ => ⟨S1x24x192x192, .f32⟩
  | _, _ => ⟨S4x1x192x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.muli arg1 c24_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.muli arg1 c24_i32
  let c24_i32_0 : BitVec 32 := 24#32
  let v1 : BitVec 32 := Scalar.addi v0 c24_i32_0
  let c191_i32 : BitVec 32 := 191#32
  let v2 : BitVec 32 := Scalar.minsi v1 c191_i32
  let c0_i32 : BitVec 32 := 0#32
  let c0_i32_1 : BitVec 32 := 0#32
  let c0_i32_2 : BitVec 32 := 0#32
  ![arg0.toNat, v2.toNat, c0_i32.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x24x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x192x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x192x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x1x192x192x192_S4x192x192x192 : S4x1x192x192x192.ShapeCasts S4x192x192x192
  inb_S1x24x192x192_S1x24x192x192_0_0_0_0 : ∀ a, (![0, 0, 0, 0] : Fin 4 → Nat) a + S1x24x192x192.size a ≤ S1x24x192x192.size a
  h_S1x24x192x192 : 0 < S1x24x192x192.numel
  shapeCasts_S1x24x192x192_S1x24x192x192 : S1x24x192x192.ShapeCasts S1x24x192x192
  rotates_S1x24x192x192_d2 : S1x24x192x192.Rotates 2 none
  slices_S1x24x192x192_o0_0_0_0_S1x24x1x192 : S1x24x192x192.Slices ![0, 0, 0, 0] S1x24x1x192
  slices_S1x24x192x192_o0_0_191_0_S1x24x1x192 : S1x24x192x192.Slices ![0, 0, 191, 0] S1x24x1x192
  rotates_S1x24x192x192_d3 : S1x24x192x192.Rotates 3 none
  slices_S1x24x192x192_o0_0_0_0_S1x24x192x1 : S1x24x192x192.Slices ![0, 0, 0, 0] S1x24x192x1
  slices_S1x24x192x192_o0_0_0_191_S1x24x192x1 : S1x24x192x192.Slices ![0, 0, 0, 191] S1x24x192x1
  inb_S1x24x192x192_S1x23x192x192_0_1_0_0 : ∀ a, (![0, 1, 0, 0] : Fin 4 → Nat) a + S1x23x192x192.size a ≤ S1x24x192x192.size a
  h_S1x23x192x192 : 0 < S1x23x192x192.numel
  shapeCasts_S1x23x192x192_S1x23x192x192 : S1x23x192x192.ShapeCasts S1x23x192x192
  slices_S1x24x192x192_o0_0_0_0_S1x23x192x192 : S1x24x192x192.Slices ![0, 0, 0, 0] S1x23x192x192
  inb_S1x24x192x192_S1x23x192x192_0_0_0_0 : ∀ a, (![0, 0, 0, 0] : Fin 4 → Nat) a + S1x23x192x192.size a ≤ S1x24x192x192.size a
  slices_S1x24x192x192_o0_1_0_0_S1x23x192x192 : S1x24x192x192.Slices ![0, 1, 0, 0] S1x23x192x192
  inb_S1x1x192x192_S1x1x192x192_0_0_0_0 : ∀ a, (![0, 0, 0, 0] : Fin 4 → Nat) a + S1x1x192x192.size a ≤ S1x1x192x192.size a
  h_S1x1x192x192 : 0 < S1x1x192x192.numel
  shapeCasts_S1x1x192x192_S1x1x192x192 : S1x1x192x192.ShapeCasts S1x1x192x192
  inb_S1x24x192x192_S1x1x192x192_0_0_0_0 : ∀ a, (![0, 0, 0, 0] : Fin 4 → Nat) a + S1x1x192x192.size a ≤ S1x24x192x192.size a
  inb_S1x24x192x192_S1x1x192x192_0_23_0_0 : ∀ a, (![0, 23, 0, 0] : Fin 4 → Nat) a + S1x1x192x192.size a ≤ S1x24x192x192.size a
  inb_S1x24x192x192_S1x24x1x192_0_0_0_0 : ∀ a, (![0, 0, 0, 0] : Fin 4 → Nat) a + S1x24x1x192.size a ≤ S1x24x192x192.size a
  h_S1x24x1x192 : 0 < S1x24x1x192.numel
  shapeCasts_S1x24x1x192_S1x24x1x192 : S1x24x1x192.ShapeCasts S1x24x1x192
  inb_S1x24x192x192_S1x24x1x192_0_0_191_0 : ∀ a, (![0, 0, 191, 0] : Fin 4 → Nat) a + S1x24x1x192.size a ≤ S1x24x192x192.size a
  inb_S1x24x192x192_S1x24x192x1_0_0_0_0 : ∀ a, (![0, 0, 0, 0] : Fin 4 → Nat) a + S1x24x192x1.size a ≤ S1x24x192x192.size a
  h_S1x24x192x1 : 0 < S1x24x192x1.numel
  shapeCasts_S1x24x192x1_S1x24x192x1 : S1x24x192x1.ShapeCasts S1x24x192x1
  inb_S1x24x192x192_S1x24x192x1_0_0_0_191 : ∀ a, (![0, 0, 0, 191] : Fin 4 → Nat) a + S1x24x192x1.size a ≤ S1x24x192x192.size a
  bcast_S4x192x192x192_S4x1x192x192x192_0_2_3_4 : S4x192x192x192.BroadcastsInDim S4x1x192x192x192 (![0, 2, 3, 4] : Fin 4 → Fin S4x1x192x192x192.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x24x192x192.size a ≤ S4x192x192x192.size a
  hwx0_0 : ∀ i : grid0.Coords, EltTy.bits .f32 = 32 ∨ (Rect.block (s := S4x192x192x192) S1x24x192x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x192x192.size a ≤ S4x192x192x192.size a
  hwx0_1 : ∀ i : grid0.Coords, EltTy.bits .f32 = 32 ∨ (Rect.block (s := S4x192x192x192) S1x1x192x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x192x192.size a ≤ S4x192x192x192.size a
  hwx0_2 : ∀ i : grid0.Coords, EltTy.bits .f32 = 32 ∨ (Rect.block (s := S4x192x192x192) S1x1x192x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x24x192x192.size a ≤ S4x192x192x192.size a
  hwx0_3 : ∀ i : grid0.Coords, EltTy.bits .f32 = 32 ∨ (Rect.block (s := S4x192x192x192) S1x24x192x192.size (cc0_transform_3 i) (hinb0_3 i)).WholeWords (EltTy.packing .f32)

variable [Facts₀]

abbrev win0_0 : Pipeline.Window sig grid0 :=
  Pipeline.Window.ofSpec (Memref.whole main_v0) S1x24x192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x192x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x192x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x24x192x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x1x192x192x192 : Shape := ⟨5, ![4, 1, 192, 192, 192]⟩
abbrev S_ : Shape := ⟨0, ![]⟩
abbrev S4x1x194x194x194 : Shape := ⟨5, ![4, 1, 194, 194, 194]⟩

abbrev nBuf : Space → Nat
  | .hbm => 29
  | .vmem => 0
  | .smem => 0
  | _ => 0

abbrev bufTy : (tb : Table) → Fin (tcTables nBuf tb) → BufTy
  | .hbm, ⟨0, _⟩ => ⟨S4x1x192x192x192, .f32⟩
  | .hbm, ⟨1, _⟩ => ⟨S_, .f32⟩
  | .hbm, ⟨2, _⟩ => ⟨S_, .f32⟩
  | .hbm, ⟨3, _⟩ => ⟨S4x1x194x194x194, .f32⟩
  | .hbm, ⟨4, _⟩ => ⟨S4x1x192x192x192, .f32⟩
  | .hbm, ⟨5, _⟩ => ⟨S_, .f32⟩
  | .hbm, ⟨6, _⟩ => ⟨S4x1x192x192x192, .f32⟩
  | .hbm, ⟨7, _⟩ => ⟨S4x1x192x192x192, .f32⟩
  | .hbm, ⟨8, _⟩ => ⟨S4x1x192x192x192, .f32⟩
  | .hbm, ⟨9, _⟩ => ⟨S4x1x192x192x192, .f32⟩
  | .hbm, ⟨10, _⟩ => ⟨S4x1x192x192x192, .f32⟩
  | .hbm, ⟨11, _⟩ => ⟨S_, .f32⟩
  | .hbm, ⟨12, _⟩ => ⟨S4x1x192x192x192, .f32⟩
  | .hbm, ⟨13, _⟩ => ⟨S4x1x192x192x192, .f32⟩
  | .hbm, ⟨14, _⟩ => ⟨S4x1x192x192x192, .f32⟩
  | .hbm, ⟨15, _⟩ => ⟨S4x1x192x192x192, .f32⟩
  | .hbm, ⟨16, _⟩ => ⟨S4x1x192x192x192, .f32⟩
  | .hbm, ⟨17, _⟩ => ⟨S4x1x192x192x192, .f32⟩
  | .hbm, ⟨18, _⟩ => ⟨S_, .f32⟩
  | .hbm, ⟨19, _⟩ => ⟨S4x1x192x192x192, .f32⟩
  | .hbm, ⟨20, _⟩ => ⟨S4x1x192x192x192, .f32⟩
  | .hbm, ⟨21, _⟩ => ⟨S4x1x192x192x192, .f32⟩
  | .hbm, ⟨22, _⟩ => ⟨S4x1x192x192x192, .f32⟩
  | .hbm, ⟨23, _⟩ => ⟨S4x1x192x192x192, .f32⟩
  | .hbm, ⟨24, _⟩ => ⟨S4x1x192x192x192, .f32⟩
  | .hbm, ⟨25, _⟩ => ⟨S_, .f32⟩
  | .hbm, ⟨26, _⟩ => ⟨S4x1x192x192x192, .f32⟩
  | .hbm, ⟨27, _⟩ => ⟨S4x1x192x192x192, .f32⟩
  | .hbm, ⟨28, _⟩ => ⟨S4x1x192x192x192, .f32⟩
  | _, _ => ⟨S4x1x192x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  pads_S4x1x192x192x192_S4x1x194x194x194_000_000_110_110_110 : S4x1x192x192x192.Pads (![0, 0, 1, 1, 1] : Fin 5 → Nat) ![0, 0, 1, 1, 1] ![0, 0, 0, 0, 0] S4x1x194x194x194
  h_S_ : 0 < S_.numel
  slices_S4x1x194x194x194_S4x1x192x192x192_0_0_1_1_1 : S4x1x194x194x194.Slices ![0, 0, 1, 1, 1] S4x1x192x192x192
  bcast_S_S4x1x192x192x192 : S_.BroadcastsInDim S4x1x192x192x192 (![] : Fin 0 → Fin S4x1x192x192x192.rank)
  slices_S4x1x194x194x194_S4x1x192x192x192_0_0_0_1_1 : S4x1x194x194x194.Slices ![0, 0, 0, 1, 1] S4x1x192x192x192
  slices_S4x1x194x194x194_S4x1x192x192x192_0_0_2_1_1 : S4x1x194x194x194.Slices ![0, 0, 2, 1, 1] S4x1x192x192x192
  slices_S4x1x194x194x194_S4x1x192x192x192_0_0_1_0_1 : S4x1x194x194x194.Slices ![0, 0, 1, 0, 1] S4x1x192x192x192
  slices_S4x1x194x194x194_S4x1x192x192x192_0_0_1_2_1 : S4x1x194x194x194.Slices ![0, 0, 1, 2, 1] S4x1x192x192x192
  slices_S4x1x194x194x194_S4x1x192x192x192_0_0_1_1_0 : S4x1x194x194x194.Slices ![0, 0, 1, 1, 0] S4x1x192x192x192
  slices_S4x1x194x194x194_S4x1x192x192x192_0_0_1_1_2 : S4x1x194x194x194.Slices ![0, 0, 1, 1, 2] S4x1x192x192x192

variable [Facts₀]

class Facts : Prop extends Facts₀ where

variable [Facts]
-- ==== Proof.KB.Body.lean ====
import proofs.«430002_j14946486190476_3_alg».proof.Proof.Gen.Kernel.Launch
import proofs.«430002_j14946486190476_3_alg».proof.Proof.Gen.Kernel.Skeleton
import proofs.«430002_j14946486190476_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at one grid point, run over whole staging buffers: the three input buffers keep their contents and the
    output buffer ends with the listed stores written over whatever it held. -/
noncomputable def kernelRun (c : Dev nD) (i : grid0.Coords)
    (arg2 : Memref sig .tc .vmem S1x24x192x192 .f32) (harg2 : arg2.IsWhole)
    (arg3 : Memref sig .tc .vmem S1x1x192x192 .f32) (harg3 : arg3.IsWhole)
    (arg4 : Memref sig .tc .vmem S1x1x192x192 .f32) (harg4 : arg4.IsWhole)
    (arg5 : Memref sig .tc .vmem S1x24x192x192 .f32) (harg5 : arg5.IsWhole)
    (x0 : Vec F S1x24x192x192 .f32) (x1 : Vec F S1x1x192x192 .f32) (x2 : Vec F S1x1x192x192 .f32) :
    { L : List (View.Piece (Elt F) S1x24x192x192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__stencil_kernel i arg2 harg2 arg3 harg3 arg4 harg4 arg5 harg5) K } := by
  refine ⟨?_, fun E K => ?run⟩
  case run =>
    simp only [cc0__stencil_kernel_eq_skeleton]; unfold cc0__stencil_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0
    obtain rfl := harg3.eq_unread hf1
    obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.KB.Data.lean ====
import proofs.«430002_j14946486190476_3_alg».proof.Proof.KB.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The proof data of the one pipeline, at a parameter `V`: the core's buffer contents when the region is entered. -/

variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point: the window is fetched whole and the
    body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated (the choice does not matter). -/
abbrev VO : View sig .tc .vmem S1x24x192x192 .f32 := (Memref.whole cc0_stg3_0 : Memref sig .tc .vmem S1x24x192x192 .f32).view
/-- Each window's current staging memref at point `t`, as the pipeline passes it to the body, and its wholeness. -/
abbrev ms0 (t : Fin cfg0.N) : Memref sig .tc .vmem S1x24x192x192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x192x192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x192x192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x24x192x192 .f32 := win0_3.stage (cfg0.slots t 3)
abbrev hs3 (t : Fin cfg0.N) : (ms3 t).IsWhole := hstage0_3 ((cfg0.slots t 3).cast nbuf0_3)

/-- The body's stores cover the output block: the first of them writes the whole block. -/
theorem cover3 (c : Dev nD) (i : grid0.Coords)
    (arg2 : Memref sig .tc .vmem S1x24x192x192 .f32) (harg2 : arg2.IsWhole)
    (arg3 : Memref sig .tc .vmem S1x1x192x192 .f32) (harg3 : arg3.IsWhole)
    (arg4 : Memref sig .tc .vmem S1x1x192x192 .f32) (harg4 : arg4.IsWhole)
    (arg5 : Memref sig .tc .vmem S1x24x192x192 .f32) (harg5 : arg5.IsWhole)
    (x0 : Vec F S1x24x192x192 .f32) (x1 : Vec F S1x1x192x192 .f32) (x2 : Vec F S1x1x192x192 .f32) (y : S1x24x192x192.Idx) :
    ∃ pc ∈ (kernelRun c i arg2 harg2 arg3 harg3 arg4 harg4 arg5 harg5 x0 x1 x2).1, y ∈ pc.1.set :=
  View.cover_of_wholeMem _ (by unfold kernelRun; dsimp only; sl_whole_mem) y

/-- What the body leaves in the output window's staging buffer: its stores read back over anything. -/
def out3 (c : Dev nD) (i : grid0.Coords)
    (arg2 : Memref sig .tc .vmem S1x24x192x192 .f32) (harg2 : arg2.IsWhole)
    (arg3 : Memref sig .tc .vmem S1x1x192x192 .f32) (harg3 : arg3.IsWhole)
    (arg4 : Memref sig .tc .vmem S1x1x192x192 .f32) (harg4 : arg4.IsWhole)
    (arg5 : Memref sig .tc .vmem S1x24x192x192 .f32) (harg5 : arg5.IsWhole)
    (x0 : Vec F S1x24x192x192 .f32) (x1 : Vec F S1x1x192x192 .f32) (x2 : Vec F S1x1x192x192 .f32) : Vec F S1x24x192x192 .f32 :=
  VO.read (Elt F) (VO.writes (Elt F) VO.junk (kernelRun c i arg2 harg2 arg3 harg3 arg4 harg4 arg5 harg5 x0 x1 x2).1)

/-- The output block at point `t`: the body run on the point's staging memrefs and the three input blocks. -/
def outAt (c : Dev nD) (t : Fin cfg0.N) : Vec F S1x24x192x192 .f32 :=
  out3 c (grid0.coords t) (ms0 t) (hs0 t) (ms1 t) (hs1 t) (ms2 t) (hs2 t) (ms3 t) (hs3 t) (iblk V c 0 t) (iblk V c 1 t) (iblk V c 2 t)

/-- The proof data on core `c`: the arrays as the region finds them; after the body each input's buffer at its
    block and the output's at `outAt`; the three input windows read ONE array, whose full share is dealt among them
    (a half and two quarters); nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec0 c
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = outAt V c t := by dsimp only [dat0]

theorem before_0 (c : Dev nD) (t : Fin cfg0.N) (d) : (dat0 V c).before 0 t d = iblk V c 0 t :=
  before_0_of V (dat0 V c) (A_eq V c 0) (after_0 V c) t d
theorem before_1 (c : Dev nD) (t : Fin cfg0.N) (d) : (dat0 V c).before 1 t d = iblk V c 1 t :=
  before_1_of V (dat0 V c) (A_eq V c 1) (after_1 V c) t d
theorem before_2 (c : Dev nD) (t : Fin cfg0.N) (d) : (dat0 V c).before 2 t d = iblk V c 2 t :=
  before_2_of V (dat0 V c) (A_eq V c 2) (after_2 V c) t d

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
/-- The body at any point: the inputs' buffers hold their blocks, so the run applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat0 V c).Φ t.succ = (dat0 V c).Φ t.castSucc from rfl,
    show (dat0 V c).owesAt () t.succ = (dat0 V c).owesAt () t.castSucc from rfl,
    after_0, after_1, after_2, after_3]
  unfold outAt out3
  iintro ⟨HΦ, Ho, ⟨%d0, H0⟩, ⟨%d1, H1⟩, ⟨%d2, H2⟩, ⟨%d3, H3⟩⟩
  iapply ((kernelRun c (grid0.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3 c _ _ _ _ _ _ _ _ _ _ _ _)

/-- The body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.KB.Entry.lean ====
import proofs.«430002_j14946486190476_3_alg».proof.Proof.KB.Data
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The core's buffer contents at launch and when the region is entered (after the one host operation before it). -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host reshape: the region's entry contents. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- The array the three input windows share is the argument with its unit channel axis dropped. -/
theorem V1_main_v0 (c : Dev nD) :
    (V1 m ρ c main_v0 : S4x192x192x192.Idx → Elt F .f32)
      = shapeCast S4x192x192x192 (m ((c : Thread nD τ).loc main_arg0)) shapeCasts_S4x1x192x192x192_S4x192x192x192 := by
  show StableHlo.after hostOps0 (W0 m ρ c) (Proc.devRef .tc main_v0) = _
  after_results
  rfl

end Cert.Kernel.Hand

end
-- ==== Proof.KB.Run.lean ====
import proofs.«430002_j14946486190476_3_alg».proof.Proof.KB.Entry
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return

## The buffer contents at each segment boundary: a fold through @main -/

/-- At the region's exit: the output array at what the write-backs leave, every other buffer as entered. -/
def W2 (c : Dev nD) : Valuation τ sig (Elt F) :=
  Function.update (W1 m ρ c) (Proc.devRef .tc main_v1) ((dat0 (V1 m ρ) c).arrAt 3 cfg0.N)

theorem W2_main_v1 (c : Dev nD) : W2 m ρ c (Proc.devRef .tc main_v1) = (dat0 (V1 m ρ) c).arrAt 3 cfg0.N := by
  unfold W2; exact Function.update_self ..

theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..

abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

section Arrays

variable (V : (c : Dev nD) → (b : Ref sig .tc) → Buf (Elt F) ((c : Thread nD τ).loc b))

/-- The distinct buffers behind the four windows' arrays are two. -/
theorem arrBufs_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v0) ↦{fullShare} X main_v0) ∗ (((c : Thread nD τ).loc main_v1) ↦{fullShare} X main_v1)) := by
  unfold Pipeline.arrBufs
  rw [show Finset.univ.image (Pipeline.arrRef spec0) = {main_v0, main_v1} from by decide,
    bigSep_insert (by decide), bigSep_singleton]
  rfl

/-- The pipeline's arrays, window by window: the one input array at the three dealt shares, the output array whole. -/
theorem arrays_eq0 (c : Dev nD) (G : (w : Fin cfg0.W) → Buf (Elt F) ((cfg0.win w).arr.view.loc (c : Thread nD τ))) :
    ((dat0 V c).arrays G : sProp 𝕄)
      = iprop((((c : Thread nD τ).loc main_v0) ↦{fullShare.left} G 0) ∗ (((c : Thread nD τ).loc main_v0) ↦{fullShare.right.left} G 1)
          ∗ (((c : Thread nD τ).loc main_v0) ↦{fullShare.right.right} G 2) ∗ (((c : Thread nD τ).loc main_v1) ↦{fullShare} G 3)) := by
  unfold Dat.arrays
  rw [bigSep_W0]
  rw [(arr_whole0 0).set_eq_univ, (arr_whole0 3).set_eq_univ]
  rfl

end Arrays

section EntryExit

variable (V : (c : Dev nD) → (b : Ref sig .tc) → Buf (Elt F) ((c : Thread nD τ).loc b))

/-- ENTRY: the core's unscoped buffers at `V c` are the pipeline's arrays at their entry contents — the input array's
    full share dealt in a half and two quarters among the three windows on it — and the unscoped rest. -/
theorem arrays_of_unscoped (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ cfgs 0 winFacts₀0.arr_unscoped c (V c), arrBufs_eq, arrays_eq0]
  iintro ⟨⟨H0, H1⟩, Hr⟩
  ihave H0 := (pointsTo_share (PosShare.mem_left_op_right fullShare)).1 $$ H0
  icases H0 with ⟨Hl, Hr0⟩
  ihave Hr0 := (pointsTo_share (PosShare.mem_left_op_right fullShare.right)).1 $$ Hr0
  icases Hr0 with ⟨Hrl, Hrr⟩
  isplitr [Hr]
  · isplitl [Hl]; · iexact Hl
    isplitl [Hrl]; · iexact Hrl
    isplitl [Hrr]; · iexact Hrr
    iexact H1
  iexact Hr

/-- EXIT: the three shares of the input array, still at its entry contents, join to the whole; with the output
    array at what the write-backs leave and the unscoped rest they are the core's unscoped buffers at any contents
    `V'` that has the output array so and agrees with `V c` elsewhere. -/
theorem unscoped_of_arrays (c : Dev nD) (V' : (b : Ref sig .tc) → Buf (Elt F) ((c : Thread nD τ).loc b))
    (h0 : V' main_v0 = V c main_v0) (h1 : V' main_v1 = (dat0 V c).arrAt 3 cfg0.N)
    (hrest : ∀ b, b ∉ Finset.univ.image (Pipeline.arrRef spec0) → V' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs c V' : sProp 𝕄) := by
  rw [Pipeline.unscopedBufs_split₀ cfgs 0 winFacts₀0.arr_unscoped c V', arrBufs_eq, arrays_eq0, h0, h1,
    (dat0 V c).arrAt_in 0 rfl, (dat0 V c).arrAt_in 1 rfl, (dat0 V c).arrAt_in 2 rfl]
  rw [show (Pipeline.unscopedRest spec0 c V' : sProp 𝕄) = Pipeline.unscopedRest spec0 c (V c) from by
    unfold Pipeline.unscopedRest
    exact bigSep_congr fun b hb => by rw [hrest b (Finset.mem_sdiff.mp hb).2]]
  iintro ⟨⟨Hl, Hrl, Hrr, H1⟩, Hr⟩
  isplitr [Hr]
  · isplitr [H1]
    · iapply (pointsTo_share (PosShare.mem_left_op_right fullShare)).2
      isplitl [Hl]; · iexact Hl
      iapply (pointsTo_share (PosShare.mem_left_op_right fullShare.right)).2
      isplitl [Hrl]; · iexact Hrl
      iexact Hrr
    iexact H1
  iexact Hr

end EntryExit

/-! ## What the last boundary holds at the result and at the argument -/

/-- The result buffer at the end: the last host operation applied to the output array as the region leaves it. -/
theorem W3_main_v2 (c : Dev nD) : W3 m ρ c (Proc.devRef .tc main_v2)
    = (broadcastInDim S4x1x192x192x192 ![0, 2, 3, 4] bcast_S4x192x192x192_S4x1x192x192x192_0_2_3_4
        ((dat0 (V1 m ρ) c).arrAt 3 cfg0.N) : (⟨S4x1x192x192x192, .f32⟩ : BufTy).Contents (Elt F)) := by
  show StableHlo.after hostOps1 (W2 m ρ c) (Proc.devRef .tc main_v2) = _
  after_results
  rw [W2_main_v1]

/-- The argument ends as launched: no host operation and no region writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          exact StableHlo.devRef_ne_of_ne (by decide)))
    _ = m ((c : Thread nD τ).loc main_arg0) := rfl

/-! ## The proof data family and the thread state -/

/-- The prefetched tables' admissible contents: the pipeline has no table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- THE REGION over the thread state: entered from every unscoped buffer at `W1`, left at `W2`. Its arrays are split
    out of the unscoped buffers, the input array's full share dealt among the three windows on it, and put back at
    the exit contents, the three shares joined; the generator register into the invariant and out; nothing owed; no
    semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_unscoped (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscoped_of_arrays (V1 m ρ) c (V2 m ρ c) (W2_of_ne m ρ c main_v0 (by decide)) (W2_main_v1 m ρ c)
      (fun b hb => W2_of_ne m ρ c b fun e => hb (e ▸ by decide))
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's three segments in order: the host stretch before the region, the region, the host stretch after it. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main IS the run of the segments. -/
theorem main_run (c : Dev nD) : main (F := F) c = Pipeline.Seg.run (segs m ρ) := (main_chain c).trans (by chain_rfl)

set_option backward.isDefEq.respectTransparency.types false in
/-- THE LAUNCH: at the compiled mesh, from any memory with zero counters, every weakly fair execution of @main on the
    TensorCores terminates, nothing faulting, and every final state has the result buffer at the last host operation
    applied to the output array as the region's write-backs leave it, and the argument as launched. -/
theorem run_main : θ_run defs (onTc (τ := τ) (main (F := F))) ⟨m, fun _ => 0, ρ⟩ (fun r => ∀ c : Dev nD,
      r.2.mem ((c.tc : Thread nD τ).loc main_v2)
          = (broadcastInDim S4x1x192x192x192 ![0, 2, 3, 4] bcast_S4x192x192x192_S4x1x192x192x192_0_2_3_4
              ((dat0 (V1 m ρ) c).arrAt 3 cfg0.N) : (⟨S4x1x192x192x192, .f32⟩ : BufTy).Contents (Elt F))
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh]; · iexact Hh
      iexact HSI)
    (hQ := fun s h c =>
      ⟨(h c _ (mem_uc main_v2 (by decide))).trans (W3_main_v2 m ρ c),
       (h c _ (mem_uc main_arg0 (by decide))).trans (W3_main_arg0 m ρ c)⟩)

/-- info: 'Cert.Kernel.Hand.run_main' depends on axioms: [propext, Classical.choice, Quot.sound] -/
#guard_msgs in #print axioms run_main

end Cert.Kernel.Hand

end
-- ==== Proof.KI.Body.lean ====
import proofs.«430002_j14946486190476_3_alg».proof.Proof.Gen.KernelIdeal.Launch
import proofs.«430002_j14946486190476_3_alg».proof.Proof.Gen.KernelIdeal.Skeleton
import proofs.«430002_j14946486190476_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at one grid point, run over whole staging buffers: the three input buffers keep their contents and the
    output buffer ends with the listed stores written over whatever it held. -/
noncomputable def kernelRun (c : Dev nD) (i : grid0.Coords)
    (arg2 : Memref sig .tc .vmem S1x24x192x192 .f32) (harg2 : arg2.IsWhole)
    (arg3 : Memref sig .tc .vmem S1x1x192x192 .f32) (harg3 : arg3.IsWhole)
    (arg4 : Memref sig .tc .vmem S1x1x192x192 .f32) (harg4 : arg4.IsWhole)
    (arg5 : Memref sig .tc .vmem S1x24x192x192 .f32) (harg5 : arg5.IsWhole)
    (x0 : Vec F S1x24x192x192 .f32) (x1 : Vec F S1x1x192x192 .f32) (x2 : Vec F S1x1x192x192 .f32) :
    { L : List (View.Piece (Elt F) S1x24x192x192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__stencil_kernel i arg2 harg2 arg3 harg3 arg4 harg4 arg5 harg5) K } := by
  refine ⟨?_, fun E K => ?run⟩
  case run =>
    simp only [cc0__stencil_kernel_eq_skeleton]; unfold cc0__stencil_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0
    obtain rfl := harg3.eq_unread hf1
    obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.Data.lean ====
import proofs.«430002_j14946486190476_3_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The proof data of the one pipeline, at a parameter `V`: the core's buffer contents when the region is entered. -/

variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point: the window is fetched whole and the
    body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated (the choice does not matter). -/
abbrev VO : View sig .tc .vmem S1x24x192x192 .f32 := (Memref.whole cc0_stg3_0 : Memref sig .tc .vmem S1x24x192x192 .f32).view
/-- Each window's current staging memref at point `t`, as the pipeline passes it to the body, and its wholeness. -/
abbrev ms0 (t : Fin cfg0.N) : Memref sig .tc .vmem S1x24x192x192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x192x192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x192x192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x24x192x192 .f32 := win0_3.stage (cfg0.slots t 3)
abbrev hs3 (t : Fin cfg0.N) : (ms3 t).IsWhole := hstage0_3 ((cfg0.slots t 3).cast nbuf0_3)

/-- The body's stores cover the output block: the first of them writes the whole block. -/
theorem cover3 (c : Dev nD) (i : grid0.Coords)
    (arg2 : Memref sig .tc .vmem S1x24x192x192 .f32) (harg2 : arg2.IsWhole)
    (arg3 : Memref sig .tc .vmem S1x1x192x192 .f32) (harg3 : arg3.IsWhole)
    (arg4 : Memref sig .tc .vmem S1x1x192x192 .f32) (harg4 : arg4.IsWhole)
    (arg5 : Memref sig .tc .vmem S1x24x192x192 .f32) (harg5 : arg5.IsWhole)
    (x0 : Vec F S1x24x192x192 .f32) (x1 : Vec F S1x1x192x192 .f32) (x2 : Vec F S1x1x192x192 .f32) (y : S1x24x192x192.Idx) :
    ∃ pc ∈ (kernelRun c i arg2 harg2 arg3 harg3 arg4 harg4 arg5 harg5 x0 x1 x2).1, y ∈ pc.1.set :=
  View.cover_of_wholeMem _ (by unfold kernelRun; dsimp only; sl_whole_mem) y

/-- What the body leaves in the output window's staging buffer: its stores read back over anything. -/
def out3 (c : Dev nD) (i : grid0.Coords)
    (arg2 : Memref sig .tc .vmem S1x24x192x192 .f32) (harg2 : arg2.IsWhole)
    (arg3 : Memref sig .tc .vmem S1x1x192x192 .f32) (harg3 : arg3.IsWhole)
    (arg4 : Memref sig .tc .vmem S1x1x192x192 .f32) (harg4 : arg4.IsWhole)
    (arg5 : Memref sig .tc .vmem S1x24x192x192 .f32) (harg5 : arg5.IsWhole)
    (x0 : Vec F S1x24x192x192 .f32) (x1 : Vec F S1x1x192x192 .f32) (x2 : Vec F S1x1x192x192 .f32) : Vec F S1x24x192x192 .f32 :=
  VO.read (Elt F) (VO.writes (Elt F) VO.junk (kernelRun c i arg2 harg2 arg3 harg3 arg4 harg4 arg5 harg5 x0 x1 x2).1)

/-- The output block at point `t`: the body run on the point's staging memrefs and the three input blocks. -/
def outAt (c : Dev nD) (t : Fin cfg0.N) : Vec F S1x24x192x192 .f32 :=
  out3 c (grid0.coords t) (ms0 t) (hs0 t) (ms1 t) (hs1 t) (ms2 t) (hs2 t) (ms3 t) (hs3 t) (iblk V c 0 t) (iblk V c 1 t) (iblk V c 2 t)

/-- The proof data on core `c`: the arrays as the region finds them; after the body each input's buffer at its
    block and the output's at `outAt`; the three input windows read ONE array, whose full share is dealt among them
    (a half and two quarters); nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec0 c
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = outAt V c t := by dsimp only [dat0]

theorem before_0 (c : Dev nD) (t : Fin cfg0.N) (d) : (dat0 V c).before 0 t d = iblk V c 0 t :=
  before_0_of V (dat0 V c) (A_eq V c 0) (after_0 V c) t d
theorem before_1 (c : Dev nD) (t : Fin cfg0.N) (d) : (dat0 V c).before 1 t d = iblk V c 1 t :=
  before_1_of V (dat0 V c) (A_eq V c 1) (after_1 V c) t d
theorem before_2 (c : Dev nD) (t : Fin cfg0.N) (d) : (dat0 V c).before 2 t d = iblk V c 2 t :=
  before_2_of V (dat0 V c) (A_eq V c 2) (after_2 V c) t d

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
/-- The body at any point: the inputs' buffers hold their blocks, so the run applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat0 V c).Φ t.succ = (dat0 V c).Φ t.castSucc from rfl,
    show (dat0 V c).owesAt () t.succ = (dat0 V c).owesAt () t.castSucc from rfl,
    after_0, after_1, after_2, after_3]
  unfold outAt out3
  iintro ⟨HΦ, Ho, ⟨%d0, H0⟩, ⟨%d1, H1⟩, ⟨%d2, H2⟩, ⟨%d3, H3⟩⟩
  iapply ((kernelRun c (grid0.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3 c _ _ _ _ _ _ _ _ _ _ _ _)

/-- The body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.KI.Entry.lean ====
import proofs.«430002_j14946486190476_3_alg».proof.Proof.KI.Data
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The core's buffer contents at launch and when the region is entered (after the one host operation before it). -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host reshape: the region's entry contents. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- The array the three input windows share is the argument with its unit channel axis dropped. -/
theorem V1_main_v0 (c : Dev nD) :
    (V1 m ρ c main_v0 : S4x192x192x192.Idx → Elt F .f32)
      = shapeCast S4x192x192x192 (m ((c : Thread nD τ).loc main_arg0)) shapeCasts_S4x1x192x192x192_S4x192x192x192 := by
  show StableHlo.after hostOps0 (W0 m ρ c) (Proc.devRef .tc main_v0) = _
  after_results
  rfl

end Cert.KernelIdeal.Hand

end
-- ==== Proof.KI.Run.lean ====
import proofs.«430002_j14946486190476_3_alg».proof.Proof.KI.Entry
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return

## The buffer contents at each segment boundary: a fold through @main -/

/-- At the region's exit: the output array at what the write-backs leave, every other buffer as entered. -/
def W2 (c : Dev nD) : Valuation τ sig (Elt F) :=
  Function.update (W1 m ρ c) (Proc.devRef .tc main_v1) ((dat0 (V1 m ρ) c).arrAt 3 cfg0.N)

theorem W2_main_v1 (c : Dev nD) : W2 m ρ c (Proc.devRef .tc main_v1) = (dat0 (V1 m ρ) c).arrAt 3 cfg0.N := by
  unfold W2; exact Function.update_self ..

theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..

abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

section Arrays

variable (V : (c : Dev nD) → (b : Ref sig .tc) → Buf (Elt F) ((c : Thread nD τ).loc b))

/-- The distinct buffers behind the four windows' arrays are two. -/
theorem arrBufs_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v0) ↦{fullShare} X main_v0) ∗ (((c : Thread nD τ).loc main_v1) ↦{fullShare} X main_v1)) := by
  unfold Pipeline.arrBufs
  rw [show Finset.univ.image (Pipeline.arrRef spec0) = {main_v0, main_v1} from by decide,
    bigSep_insert (by decide), bigSep_singleton]
  rfl

/-- The pipeline's arrays, window by window: the one input array at the three dealt shares, the output array whole. -/
theorem arrays_eq0 (c : Dev nD) (G : (w : Fin cfg0.W) → Buf (Elt F) ((cfg0.win w).arr.view.loc (c : Thread nD τ))) :
    ((dat0 V c).arrays G : sProp 𝕄)
      = iprop((((c : Thread nD τ).loc main_v0) ↦{fullShare.left} G 0) ∗ (((c : Thread nD τ).loc main_v0) ↦{fullShare.right.left} G 1)
          ∗ (((c : Thread nD τ).loc main_v0) ↦{fullShare.right.right} G 2) ∗ (((c : Thread nD τ).loc main_v1) ↦{fullShare} G 3)) := by
  unfold Dat.arrays
  rw [bigSep_W0]
  rw [(arr_whole0 0).set_eq_univ, (arr_whole0 3).set_eq_univ]
  rfl

end Arrays

section EntryExit

variable (V : (c : Dev nD) → (b : Ref sig .tc) → Buf (Elt F) ((c : Thread nD τ).loc b))

/-- ENTRY: the core's unscoped buffers at `V c` are the pipeline's arrays at their entry contents — the input array's
    full share dealt in a half and two quarters among the three windows on it — and the unscoped rest. -/
theorem arrays_of_unscoped (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ cfgs 0 winFacts₀0.arr_unscoped c (V c), arrBufs_eq, arrays_eq0]
  iintro ⟨⟨H0, H1⟩, Hr⟩
  ihave H0 := (pointsTo_share (PosShare.mem_left_op_right fullShare)).1 $$ H0
  icases H0 with ⟨Hl, Hr0⟩
  ihave Hr0 := (pointsTo_share (PosShare.mem_left_op_right fullShare.right)).1 $$ Hr0
  icases Hr0 with ⟨Hrl, Hrr⟩
  isplitr [Hr]
  · isplitl [Hl]; · iexact Hl
    isplitl [Hrl]; · iexact Hrl
    isplitl [Hrr]; · iexact Hrr
    iexact H1
  iexact Hr

/-- EXIT: the three shares of the input array, still at its entry contents, join to the whole; with the output
    array at what the write-backs leave and the unscoped rest they are the core's unscoped buffers at any contents
    `V'` that has the output array so and agrees with `V c` elsewhere. -/
theorem unscoped_of_arrays (c : Dev nD) (V' : (b : Ref sig .tc) → Buf (Elt F) ((c : Thread nD τ).loc b))
    (h0 : V' main_v0 = V c main_v0) (h1 : V' main_v1 = (dat0 V c).arrAt 3 cfg0.N)
    (hrest : ∀ b, b ∉ Finset.univ.image (Pipeline.arrRef spec0) → V' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs c V' : sProp 𝕄) := by
  rw [Pipeline.unscopedBufs_split₀ cfgs 0 winFacts₀0.arr_unscoped c V', arrBufs_eq, arrays_eq0, h0, h1,
    (dat0 V c).arrAt_in 0 rfl, (dat0 V c).arrAt_in 1 rfl, (dat0 V c).arrAt_in 2 rfl]
  rw [show (Pipeline.unscopedRest spec0 c V' : sProp 𝕄) = Pipeline.unscopedRest spec0 c (V c) from by
    unfold Pipeline.unscopedRest
    exact bigSep_congr fun b hb => by rw [hrest b (Finset.mem_sdiff.mp hb).2]]
  iintro ⟨⟨Hl, Hrl, Hrr, H1⟩, Hr⟩
  isplitr [Hr]
  · isplitr [H1]
    · iapply (pointsTo_share (PosShare.mem_left_op_right fullShare)).2
      isplitl [Hl]; · iexact Hl
      iapply (pointsTo_share (PosShare.mem_left_op_right fullShare.right)).2
      isplitl [Hrl]; · iexact Hrl
      iexact Hrr
    iexact H1
  iexact Hr

end EntryExit

/-! ## What the last boundary holds at the result and at the argument -/

/-- The result buffer at the end: the last host operation applied to the output array as the region leaves it. -/
theorem W3_main_v2 (c : Dev nD) : W3 m ρ c (Proc.devRef .tc main_v2)
    = (broadcastInDim S4x1x192x192x192 ![0, 2, 3, 4] bcast_S4x192x192x192_S4x1x192x192x192_0_2_3_4
        ((dat0 (V1 m ρ) c).arrAt 3 cfg0.N) : (⟨S4x1x192x192x192, .f32⟩ : BufTy).Contents (Elt F)) := by
  show StableHlo.after hostOps1 (W2 m ρ c) (Proc.devRef .tc main_v2) = _
  after_results
  rw [W2_main_v1]

/-- The argument ends as launched: no host operation and no region writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          exact StableHlo.devRef_ne_of_ne (by decide)))
    _ = m ((c : Thread nD τ).loc main_arg0) := rfl

/-! ## The proof data family and the thread state -/

/-- The prefetched tables' admissible contents: the pipeline has no table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- THE REGION over the thread state: entered from every unscoped buffer at `W1`, left at `W2`. Its arrays are split
    out of the unscoped buffers, the input array's full share dealt among the three windows on it, and put back at
    the exit contents, the three shares joined; the generator register into the invariant and out; nothing owed; no
    semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_unscoped (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscoped_of_arrays (V1 m ρ) c (V2 m ρ c) (W2_of_ne m ρ c main_v0 (by decide)) (W2_main_v1 m ρ c)
      (fun b hb => W2_of_ne m ρ c b fun e => hb (e ▸ by decide))
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's three segments in order: the host stretch before the region, the region, the host stretch after it. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main IS the run of the segments. -/
theorem main_run (c : Dev nD) : main (F := F) c = Pipeline.Seg.run (segs m ρ) := (main_chain c).trans (by chain_rfl)

set_option backward.isDefEq.respectTransparency.types false in
/-- THE LAUNCH: at the compiled mesh, from any memory with zero counters, every weakly fair execution of @main on the
    TensorCores terminates, nothing faulting, and every final state has the result buffer at the last host operation
    applied to the output array as the region's write-backs leave it, and the argument as launched. -/
theorem run_main : θ_run defs (onTc (τ := τ) (main (F := F))) ⟨m, fun _ => 0, ρ⟩ (fun r => ∀ c : Dev nD,
      r.2.mem ((c.tc : Thread nD τ).loc main_v2)
          = (broadcastInDim S4x1x192x192x192 ![0, 2, 3, 4] bcast_S4x192x192x192_S4x1x192x192x192_0_2_3_4
              ((dat0 (V1 m ρ) c).arrAt 3 cfg0.N) : (⟨S4x1x192x192x192, .f32⟩ : BufTy).Contents (Elt F))
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh]; · iexact Hh
      iexact HSI)
    (hQ := fun s h c =>
      ⟨(h c _ (mem_uc main_v2 (by decide))).trans (W3_main_v2 m ρ c),
       (h c _ (mem_uc main_arg0 (by decide))).trans (W3_main_arg0 m ρ c)⟩)

/-- info: 'Cert.KernelIdeal.Hand.run_main' depends on axioms: [propext, Classical.choice, Quot.sound] -/
#guard_msgs in #print axioms run_main

end Cert.KernelIdeal.Hand

end
-- ==== Proof.Spec.lean ====
import Idealize.ShloMosaic.PureOps.Ideal
import Idealize.ShloMosaic.Lib.ValueIdx

/-! The seven-point Laplacian with a constant halo, as one function of the field.

For a field `x` on a 4 × 192 × 192 × 192 box (a batch axis and three space axes) the result at a site is
`cc · x + wt · (x₋ + x₊)` summed over the three space axes, where `x₋` and `x₊` are the two neighbours along the
axis and a neighbour that falls outside the box reads the ambient value `amb`.  The sum is grouped as the
host program groups it: the centre term first, then the axes in order. -/

noncomputable section

namespace Cert.Stencil

open Idealize.ShloMosaic Idealize.ShloMosaic.ValueIdx

/-- The centre weight (the f32 word of −60000), the neighbour weight (10000) and the ambient value (300). -/
def cc : EReal := Ideal.ofBits .f32 0xC76A6000#32
def wt : EReal := Ideal.ofBits .f32 0x461C4000#32
def amb : EReal := Ideal.ofBits .f32 0x43960000#32

/-- The neighbour one step down a line of 192 sites; the ambient value off the lower end. -/
def below (f : Fin 192 → EReal) (k : Fin 192) : EReal :=
  if h : k.val = 0 then amb else f ⟨k.val - 1, by omega⟩

/-- The neighbour one step up the line; the ambient value off the upper end. -/
def above (f : Fin 192 → EReal) (k : Fin 192) : EReal :=
  if h : k.val = 191 then amb else f ⟨k.val + 1, by omega⟩

/-- The stencil at a site, over the field given by coordinates. -/
def lap (x : Fin 4 → Fin 192 → Fin 192 → Fin 192 → EReal) (b : Fin 4) (d h w : Fin 192) : EReal :=
  ((cc * x b d h w + wt * (below (fun k => x b k h w) d + above (fun k => x b k h w) d))
      + wt * (below (fun k => x b d k w) h + above (fun k => x b d k w) h))
    + wt * (below (fun k => x b d h k) w + above (fun k => x b d h k) w)

/-- The cyclic neighbours on a line of 192 sites: one step down and one step up, around the ends. -/
def cycm (f : Fin 192 → EReal) (k : Fin 192) : EReal := f ⟨(k.val + 191) % 192, Nat.mod_lt _ (by decide)⟩
def cycp (f : Fin 192 → EReal) (k : Fin 192) : EReal := f ⟨(k.val + 1) % 192, Nat.mod_lt _ (by decide)⟩

/-- The same stencil as the tiled program accumulates it.  The two in-plane axes first, with CYCLIC neighbours;
    then the depth axis, the lower neighbour first except on the first plane of a 24-plane tile, where the upper
    one comes first; then, on the four faces of the in-plane axes, the correction `wt · (amb − wrapped)` that
    replaces the neighbour wrapped around the end by the ambient value. -/
def klap (x : Fin 4 → Fin 192 → Fin 192 → Fin 192 → EReal) (b : Fin 4) (d h w : Fin 192) : EReal :=
  let s4 := (((cc * x b d h w + wt * cycm (fun k => x b d k w) h) + wt * cycp (fun k => x b d k w) h)
      + wt * cycm (fun k => x b d h k) w) + wt * cycp (fun k => x b d h k) w
  let s8 := if d.val % 24 = 0
    then (s4 + wt * above (fun k => x b k h w) d) + wt * below (fun k => x b k h w) d
    else (s4 + wt * below (fun k => x b k h w) d) + wt * above (fun k => x b k h w) d
  let s9 := if h.val = 0 then s8 + wt * (amb - cycm (fun k => x b d k w) h) else s8
  let s10 := if h.val = 191 then s9 + wt * (amb - cycp (fun k => x b d k w) h) else s9
  let s11 := if w.val = 0 then s10 + wt * (amb - cycm (fun k => x b d h k) w) else s10
  if w.val = 191 then s11 + wt * (amb - cycp (fun k => x b d h k) w) else s11

/-- The field's shape with its unit channel axis, and the stencil as a function of the whole array. -/
abbrev S5 : Shape := ⟨5, ![4, 1, 192, 192, 192]⟩

def field (x : S5.Idx → EReal) : Fin 4 → Fin 192 → Fin 192 → Fin 192 → EReal :=
  fun b d h w => x (ix5 b (0 : Fin 1) d h w)

def G (x : S5.Idx → EReal) : S5.Idx → EReal :=
  fun i => lap (field x) (i 0) (i 2) (i 3) (i 4)

end Cert.Stencil

end
-- ==== Proof.KI.StageDefs.lean ====
import proofs.«430002_j14946486190476_3_alg».proof.Proof.KI.Data
import proofs.«430002_j14946486190476_3_alg».proof.Proof.Spec
import Idealize.ShloMosaic.Lib.KernelVsHost
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What the body's twelve stores leave in the output block, store by store, as functions of the three input blocks
    at a site `(dl, h, w)` of the 24 × 192 × 192 block: the statements the store-by-store reading proves. -/

open Idealize.ShloMosaic.ValueIdx Cert.Stencil

/-- Under the newest store's unit-stride rectangle the canonical contents are its payload at the index minus the
    offsets. -/
theorem canon_unit_of_mem {s : Shape} {e : EltTy} {Val : EltTy → Type} [∀ e, Nonempty (Val e)] {off size : Fin s.rank → ℕ}
    (inb : ∀ a, off a + size a ≤ s.size a) (w : (Rect.unit off size inb).shape.Idx → Val e) (L : List (View.Piece Val s e))
    (y : s.Idx) (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]; exact View.canon_cons_emb _ w L x

/-- Off it on some axis, the contents the earlier stores left. -/
theorem canon_unit_of_not_mem {s : Shape} {e : EltTy} {Val : EltTy → Type} [∀ e, Nonempty (Val e)] {off size : Fin s.rank → ℕ}
    (inb : ∀ a, off a + size a ≤ s.size a) (w : (Rect.unit off size inb).shape.Idx → Val e) (L : List (View.Piece Val s e))
    (y : s.Idx) (a : Fin s.rank) (ha : (y a).val < off a ∨ off a + size a ≤ (y a).val) :
    View.canon ((⟨Rect.unit off size inb, w⟩ : View.Piece Val s e) :: L) y = View.canon L y := by
  refine View.canon_cons_of_not_mem _ L ?_
  rw [Rect.mem_set_unit]
  intro hall
  have := hall a
  omega

theorem hz4 : (![0, 0, 0, 0] : Fin 4 → Nat) = fun _ => 0 := funext fun a => by fin_cases a <;> rfl

/-- One step down and one step up a line of 192 sites, around the ends. -/
def dn (k : Fin 192) : Fin 192 := ⟨(k.val + 191) % 192, Nat.mod_lt _ (by decide)⟩
def up (k : Fin 192) : Fin 192 := ⟨(k.val + 1) % 192, Nat.mod_lt _ (by decide)⟩

section Sites

variable (x0 : S1x24x192x192.Idx → EReal) (x1 x2 : S1x1x192x192.Idx → EReal) (i1 : ℕ)

/-- After the four whole-block stores: the centre term and the four in-plane cyclic neighbours. -/
def S4 (dl : Fin 24) (h w : Fin 192) : EReal :=
  (((cc * x0 (ix4 (0 : Fin 1) dl h w) + wt * x0 (ix4 (0 : Fin 1) dl (dn h) w)) + wt * x0 (ix4 (0 : Fin 1) dl (up h) w))
    + wt * x0 (ix4 (0 : Fin 1) dl h (dn w))) + wt * x0 (ix4 (0 : Fin 1) dl h (up w))

/-- After the store into planes 1…23: the plane below, from the centre block. -/
def S5 (dl : Fin 24) (h w : Fin 192) : EReal :=
  if hd : 1 ≤ dl.val then S4 x0 dl h w + wt * x0 (ix4 (0 : Fin 1) (⟨dl.val - 1, by omega⟩ : Fin 24) h w) else S4 x0 dl h w

/-- After the store into planes 0…22: the plane above, from the centre block. -/
def S6 (dl : Fin 24) (h w : Fin 192) : EReal :=
  if hd : dl.val ≤ 22 then S5 x0 dl h w + wt * x0 (ix4 (0 : Fin 1) (⟨dl.val + 1, by omega⟩ : Fin 24) h w) else S5 x0 dl h w

/-- After the store into plane 0: the plane below the tile, or the ambient value in the first tile. -/
def S7 (dl : Fin 24) (h w : Fin 192) : EReal :=
  if dl.val = 0 then S6 x0 dl h w + wt * (if i1 = 0 then amb else x1 (ix4 (0 : Fin 1) (0 : Fin 1) h w)) else S6 x0 dl h w

/-- After the store into plane 23: the plane above the tile, or the ambient value in the last tile. -/
def S8 (dl : Fin 24) (h w : Fin 192) : EReal :=
  if dl.val = 23 then S7 x0 x1 i1 dl h w + wt * (if i1 = 7 then amb else x2 (ix4 (0 : Fin 1) (0 : Fin 1) h w)) else S7 x0 x1 i1 dl h w

/-- After the four face stores: on each in-plane face the wrapped neighbour traded for the ambient value. -/
def S9 (dl : Fin 24) (h w : Fin 192) : EReal :=
  if h.val = 0 then S8 x0 x1 x2 i1 dl h w + wt * (amb - x0 (ix4 (0 : Fin 1) dl (dn h) w)) else S8 x0 x1 x2 i1 dl h w
def S10 (dl : Fin 24) (h w : Fin 192) : EReal :=
  if h.val = 191 then S9 x0 x1 x2 i1 dl h w + wt * (amb - x0 (ix4 (0 : Fin 1) dl (up h) w)) else S9 x0 x1 x2 i1 dl h w
def S11 (dl : Fin 24) (h w : Fin 192) : EReal :=
  if w.val = 0 then S10 x0 x1 x2 i1 dl h w + wt * (amb - x0 (ix4 (0 : Fin 1) dl h (dn w))) else S10 x0 x1 x2 i1 dl h w
def S12 (dl : Fin 24) (h w : Fin 192) : EReal :=
  if w.val = 191 then S11 x0 x1 x2 i1 dl h w + wt * (amb - x0 (ix4 (0 : Fin 1) dl h (up w))) else S11 x0 x1 x2 i1 dl h w

end Sites

section Reads

variable (c : Dev nD)
    (arg2 : Memref sig .tc .vmem S1x24x192x192 .f32) (harg2 : arg2.IsWhole)
    (arg3 : Memref sig .tc .vmem S1x1x192x192 .f32) (harg3 : arg3.IsWhole)
    (arg4 : Memref sig .tc .vmem S1x1x192x192 .f32) (harg4 : arg4.IsWhole)
    (x0 : Vec Ideal S1x24x192x192 .f32) (x1 : Vec Ideal S1x1x192x192 .f32) (x2 : Vec Ideal S1x1x192x192 .f32)

/-- A whole-block load of an input buffer reads the input block. -/
theorem load2_eq : View.readAt (Elt Ideal) arg2.view
      (Rect.unit ![0, 0, 0, 0] S1x24x192x192.size inb_S1x24x192x192_S1x24x192x192_0_0_0_0).toLoadRect (harg2.unread x0) = x0 := by
  simp only [View.readAt_eq_ld, harg2.read_unread, View.ld_unit_zero (S := S1x24x192x192) hz4]
theorem load3_eq : View.readAt (Elt Ideal) arg3.view
      (Rect.unit ![0, 0, 0, 0] S1x1x192x192.size inb_S1x1x192x192_S1x1x192x192_0_0_0_0).toLoadRect (harg3.unread x1) = x1 := by
  simp only [View.readAt_eq_ld, harg3.read_unread, View.ld_unit_zero (S := S1x1x192x192) hz4]
theorem load4_eq : View.readAt (Elt Ideal) arg4.view
      (Rect.unit ![0, 0, 0, 0] S1x1x192x192.size inb_S1x1x192x192_S1x1x192x192_0_0_0_0).toLoadRect (harg4.unread x2) = x2 := by
  simp only [View.readAt_eq_ld, harg4.read_unread, View.ld_unit_zero (S := S1x1x192x192) hz4]

/-- The centre block as the body names it is the input block. -/
theorem centre_eq : kernelRun.sl.r (F := Ideal) c arg2 harg2 x0 = x0 := by
  unfold kernelRun.sl.r k0_pay1
  rw [shapeCast_self, load2_eq]

end Reads

end Cert.KernelIdeal.Hand

end
-- ==== Proof.KI.StageA.lean ====
import proofs.«430002_j14946486190476_3_alg».proof.Proof.KI.StageDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Stencil

/-! The first four stores, each through the whole output block, read store by store at a site: every one after the
    first loads the whole block back, so reads exactly the payload stored just before it, and adds one in-plane
    cyclic neighbour. -/

section Rot

variable (x : Vec Ideal S1x24x192x192 .f32) (dl : Fin 24) (h w : Fin 192)

/-- A rotation by one along the rows, read at a site, is the block one row down, around the end. -/
theorem rot_h_dn :
    dynamicRotate 2 1#32 none x rotates_S1x24x192x192_d2 (ix4 (0 : Fin 1) dl h w) = x (ix4 (0 : Fin 1) dl (dn h) w) := by
  refine dynamicRotate_apply 2 1#32 x _ _ _ ?_
  intro b
  fin_cases b <;> simp [ix4, dn]

/-- A rotation by 191 along the rows is the block one row up. -/
theorem rot_h_up :
    dynamicRotate 2 191#32 none x rotates_S1x24x192x192_d2 (ix4 (0 : Fin 1) dl h w) = x (ix4 (0 : Fin 1) dl (up h) w) := by
  refine dynamicRotate_apply 2 191#32 x _ _ _ ?_
  intro b
  fin_cases b <;> simp [ix4, up]

/-- A rotation by one along the columns is the block one column down. -/
theorem rot_w_dn :
    dynamicRotate 3 1#32 none x rotates_S1x24x192x192_d3 (ix4 (0 : Fin 1) dl h w) = x (ix4 (0 : Fin 1) dl h (dn w)) := by
  refine dynamicRotate_apply 3 1#32 x _ _ _ ?_
  intro b
  fin_cases b <;> simp [ix4, dn]

/-- A rotation by 191 along the columns is the block one column up. -/
theorem rot_w_up :
    dynamicRotate 3 191#32 none x rotates_S1x24x192x192_d3 (ix4 (0 : Fin 1) dl h w) = x (ix4 (0 : Fin 1) dl h (up w)) := by
  refine dynamicRotate_apply 3 191#32 x _ _ _ ?_
  intro b
  fin_cases b <;> simp [ix4, up]

end Rot

section Stores

variable (c : Dev nD) (i : grid0.Coords)
    (arg2 : Memref sig .tc .vmem S1x24x192x192 .f32) (harg2 : arg2.IsWhole)
    (arg3 : Memref sig .tc .vmem S1x1x192x192 .f32) (harg3 : arg3.IsWhole)
    (arg4 : Memref sig .tc .vmem S1x1x192x192 .f32) (harg4 : arg4.IsWhole)
    (arg5 : Memref sig .tc .vmem S1x24x192x192 .f32) (harg5 : arg5.IsWhole)
    (x0 : Vec Ideal S1x24x192x192 .f32) (x1 : Vec Ideal S1x1x192x192 .f32) (x2 : Vec Ideal S1x1x192x192 .f32)

/-- The first store's payload at a site: the centre term and the row below. -/
theorem pay4_site (dl : Fin 24) (h w : Fin 192) :
    k0_pay4 (F := Ideal) x0 (ix4 (0 : Fin 1) dl h w)
      = cc * x0 (ix4 (0 : Fin 1) dl h w) + wt * x0 (ix4 (0 : Fin 1) dl (dn h) w) := by
  unfold k0_pay4 k0_pay2 k0_pay1
  simp only [shapeCast_self]
  rw [addf_apply, mulf_apply, mulf_apply, broadcast_apply, broadcast_apply, rot_h_dn]
  rfl

theorem st1 (dl : Fin 24) (h w : Fin 192) :
    View.canon (kernelRun.sl.H3_1 (F := Ideal) c arg2 harg2 x0) (ix4 (0 : Fin 1) dl h w)
      = cc * x0 (ix4 (0 : Fin 1) dl h w) + wt * x0 (ix4 (0 : Fin 1) dl (dn h) w) := by
  unfold kernelRun.sl.H3_1
  rw [View.canon_unit_zero hz4, load2_eq, pay4_site]

/-- The load after the first store reads the first store's payload. -/
theorem v12_eq : kernelRun.sl.v12 (F := Ideal) c arg2 harg2 arg5 x0 = k0_pay4 x0 := by
  unfold kernelRun.sl.v12 kernelRun.sl.H3_1
  rw [View.readCov_cons_toLoadRect, load2_eq]

/-- The second store's payload at a site: what was loaded, and the row above. -/
theorem pay7_site (v : Vec Ideal S1x24x192x192 .f32) (dl : Fin 24) (h w : Fin 192) :
    k0_pay7 (F := Ideal) x0 v (ix4 (0 : Fin 1) dl h w)
      = v (ix4 (0 : Fin 1) dl h w) + wt * x0 (ix4 (0 : Fin 1) dl (up h) w) := by
  unfold k0_pay7 k0_pay5 k0_pay1
  simp only [shapeCast_self]
  rw [addf_apply, mulf_apply, broadcast_apply, rot_h_up]
  rfl

theorem st2 (dl : Fin 24) (h w : Fin 192) :
    View.canon (kernelRun.sl.H3_2 (F := Ideal) c arg2 harg2 arg5 x0) (ix4 (0 : Fin 1) dl h w)
      = (cc * x0 (ix4 (0 : Fin 1) dl h w) + wt * x0 (ix4 (0 : Fin 1) dl (dn h) w))
          + wt * x0 (ix4 (0 : Fin 1) dl (up h) w) := by
  unfold kernelRun.sl.H3_2
  rw [View.canon_cons_unit_zero hz4, load2_eq, v12_eq, pay7_site, pay4_site]

/-- The load after the second store reads the second store's payload. -/
theorem v20_eq : kernelRun.sl.v20 (F := Ideal) c arg2 harg2 arg5 x0 = k0_pay7 x0 (k0_pay4 x0) := by
  unfold kernelRun.sl.v20 kernelRun.sl.H3_2
  rw [View.readCov_cons_toLoadRect, load2_eq, v12_eq]

/-- The third store's payload at a site: what was loaded, and the column below. -/
theorem pay10_site (v : Vec Ideal S1x24x192x192 .f32) (dl : Fin 24) (h w : Fin 192) :
    k0_pay10 (F := Ideal) x0 v (ix4 (0 : Fin 1) dl h w)
      = v (ix4 (0 : Fin 1) dl h w) + wt * x0 (ix4 (0 : Fin 1) dl h (dn w)) := by
  unfold k0_pay10 k0_pay8 k0_pay1
  simp only [shapeCast_self]
  rw [addf_apply, mulf_apply, broadcast_apply, rot_w_dn]
  rfl

/-- The third store's payload as the body names it. -/
theorem r4_eq : kernelRun.sl.r_4 (F := Ideal) c arg2 harg2 arg5 x0 = k0_pay10 x0 (k0_pay7 x0 (k0_pay4 x0)) := by
  unfold kernelRun.sl.r_4
  rw [load2_eq, v20_eq]

theorem st3 (dl : Fin 24) (h w : Fin 192) :
    View.canon (kernelRun.sl.H3_3 (F := Ideal) c arg2 harg2 arg5 x0) (ix4 (0 : Fin 1) dl h w)
      = ((cc * x0 (ix4 (0 : Fin 1) dl h w) + wt * x0 (ix4 (0 : Fin 1) dl (dn h) w))
          + wt * x0 (ix4 (0 : Fin 1) dl (up h) w)) + wt * x0 (ix4 (0 : Fin 1) dl h (dn w)) := by
  unfold kernelRun.sl.H3_3
  rw [View.canon_cons_unit_zero hz4, r4_eq, pay10_site, pay7_site, pay4_site]

/-- The load after the third store reads the third store's payload. -/
theorem v28_eq : kernelRun.sl.v28 (F := Ideal) c arg2 harg2 arg5 x0 = k0_pay10 x0 (k0_pay7 x0 (k0_pay4 x0)) := by
  unfold kernelRun.sl.v28 kernelRun.sl.H3_3
  rw [View.readCov_cons_toLoadRect, r4_eq]

/-- The fourth store's payload at a site: what was loaded, and the column above. -/
theorem pay13_site (v : Vec Ideal S1x24x192x192 .f32) (dl : Fin 24) (h w : Fin 192) :
    k0_pay13 (F := Ideal) x0 v (ix4 (0 : Fin 1) dl h w)
      = v (ix4 (0 : Fin 1) dl h w) + wt * x0 (ix4 (0 : Fin 1) dl h (up w)) := by
  unfold k0_pay13 k0_pay11
  simp only [shapeCast_self]
  rw [addf_apply, mulf_apply, broadcast_apply, rot_w_up]
  rfl

/-- After the four whole-block stores the output block holds, at every site, the centre term and the four in-plane
    cyclic neighbours. -/
theorem stageA (dl : Fin 24) (h w : Fin 192) :
    View.canon (kernelRun.sl.H3_4 (F := Ideal) c arg2 harg2 arg5 x0) (ix4 (0 : Fin 1) dl h w) = S4 x0 dl h w := by
  unfold kernelRun.sl.H3_4
  rw [View.canon_cons_unit_zero hz4, centre_eq, v28_eq, pay13_site, pay10_site, pay7_site, pay4_site]
  rfl

end Stores

end Cert.KernelIdeal.Hand

end
-- ==== Proof.KI.StageB.lean ====
import proofs.«430002_j14946486190476_3_alg».proof.Proof.KI.StageDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Stencil

/-! Stores five to eight of the body's twelve, read at a site `(dl, h, w)` of the 24 × 192 × 192 block. Each store adds
    one term on the planes under its rectangle and leaves the other planes alone: planes 1…23 gain the weight times the
    centre block one plane below; planes 0…22 the weight times the centre block one plane above; plane 0 the weight times
    the lower halo plane, or the ambient value in the first tile; plane 23 the weight times the upper halo plane, or the
    ambient value in the last tile. Each step reads the value the store loaded through its own rectangle as the
    contents the earlier stores left at the site the rectangle's index names. -/

variable (c : Dev nD) (i : grid0.Coords)
    (arg2 : Memref sig .tc .vmem S1x24x192x192 .f32) (harg2 : arg2.IsWhole)
    (arg3 : Memref sig .tc .vmem S1x1x192x192 .f32) (harg3 : arg3.IsWhole)
    (arg4 : Memref sig .tc .vmem S1x1x192x192 .f32) (harg4 : arg4.IsWhole)
    (arg5 : Memref sig .tc .vmem S1x24x192x192 .f32) (harg5 : arg5.IsWhole)
    (x0 : Vec Ideal S1x24x192x192 .f32) (x1 : Vec Ideal S1x1x192x192 .f32) (x2 : Vec Ideal S1x1x192x192 .f32)

/-- The box of planes 1…23 names, at a local index, the site one plane up. -/
theorem box5_idx (d : Fin 23) (h w : Fin 192) :
    (Rect.unit (s := S1x24x192x192) ![0, 1, 0, 0] S1x23x192x192.size inb_S1x24x192x192_S1x23x192x192_0_1_0_0).toLoadRect.idx (ix4 (0 : Fin 1) d h w)
      = ix4 (0 : Fin 1) (⟨d.val + 1, by omega⟩ : Fin 24) h w := by
  funext a
  apply Fin.ext
  match a with
  | ⟨0, _⟩ => rfl
  | ⟨1, _⟩ => show 1 + 1 * d.val = d.val + 1; omega
  | ⟨2, _⟩ => show 0 + 1 * h.val = h.val; omega
  | ⟨3, _⟩ => show 0 + 1 * w.val = w.val; omega

/-- What the load of planes 1…23 reads after the fourth store. -/
theorem read5 (hA : ∀ (dl : Fin 24) (h w : Fin 192), View.canon (kernelRun.sl.H3_4 (F := Ideal) c arg2 harg2 arg5 x0) (ix4 (0 : Fin 1) dl h w) = S4 x0 dl h w)
    (d : Fin 23) (h w : Fin 192) :
    kernelRun.sl.v34 (F := Ideal) c arg2 harg2 arg5 x0 (ix4 (0 : Fin 1) d h w) = S4 x0 (⟨d.val + 1, by omega⟩ : Fin 24) h w := by
  unfold kernelRun.sl.v34
  rw [View.readCov_eq_canon']
  show View.canon _ ((Rect.unit (s := S1x24x192x192) ![0, 1, 0, 0] S1x23x192x192.size inb_S1x24x192x192_S1x23x192x192_0_1_0_0).toLoadRect.idx (ix4 (0 : Fin 1) d h w)) = _
  rw [box5_idx, hA]

theorem st5 (hA : ∀ (dl : Fin 24) (h w : Fin 192), View.canon (kernelRun.sl.H3_4 (F := Ideal) c arg2 harg2 arg5 x0) (ix4 (0 : Fin 1) dl h w) = S4 x0 dl h w)
    (dl : Fin 24) (h w : Fin 192) :
    View.canon (kernelRun.sl.H3_5 (F := Ideal) c arg2 harg2 arg5 x0) (ix4 (0 : Fin 1) dl h w) = S5 x0 dl h w := by
  unfold kernelRun.sl.H3_5 S5
  by_cases hd : 1 ≤ dl.val
  · rw [dif_pos hd]
    rw [canon_unit_of_mem (s := S1x24x192x192) (off := ![0, 1, 0, 0]) (size := S1x23x192x192.size)
      inb_S1x24x192x192_S1x23x192x192_0_1_0_0 _ _ (ix4 (0 : Fin 1) dl h w)
      (ix4 (0 : Fin 1) (⟨dl.val - 1, by omega⟩ : Fin 23) h w) (by
        intro a
        match a with
        | ⟨0, _⟩ => rfl
        | ⟨1, _⟩ => show dl.val = 1 + (dl.val - 1); omega
        | ⟨2, _⟩ => show h.val = 0 + h.val; omega
        | ⟨3, _⟩ => show w.val = 0 + w.val; omega)]
    unfold k0_pay14
    rw [shapeCast_self, centre_eq, addf_apply, mulf_apply, broadcast_apply,
      extractStridedSlice_apply ![0, 0, 0, 0] x0 slices_S1x24x192x192_o0_0_0_0_S1x23x192x192
        (ix4 (0 : Fin 1) (⟨dl.val - 1, by omega⟩ : Fin 23) h w) (ix4 (0 : Fin 1) (⟨dl.val - 1, by omega⟩ : Fin 24) h w) (by
          intro a
          match a with
          | ⟨0, _⟩ => rfl
          | ⟨1, _⟩ => show dl.val - 1 = 0 + (dl.val - 1); omega
          | ⟨2, _⟩ => show h.val = 0 + h.val; omega
          | ⟨3, _⟩ => show w.val = 0 + w.val; omega),
      read5 c arg2 harg2 arg5 x0 hA]
    have e : (⟨(⟨dl.val - 1, by omega⟩ : Fin 23).val + 1, by omega⟩ : Fin 24) = dl := Fin.ext (by show dl.val - 1 + 1 = dl.val; omega)
    exact congrArg (fun k => S4 x0 k h w + wt * x0 (ix4 (0 : Fin 1) (⟨dl.val - 1, by omega⟩ : Fin 24) h w)) e
  · rw [dif_neg hd]
    rw [canon_unit_of_not_mem (s := S1x24x192x192) (off := ![0, 1, 0, 0]) (size := S1x23x192x192.size)
      inb_S1x24x192x192_S1x23x192x192_0_1_0_0 _ _ (ix4 (0 : Fin 1) dl h w) 1 (by
      left; show dl.val < 1; omega)]
    exact hA dl h w

/-- The box of planes 0…22 names, at a local index, the same site. -/
theorem box6_idx (d : Fin 23) (h w : Fin 192) :
    (Rect.unit (s := S1x24x192x192) ![0, 0, 0, 0] S1x23x192x192.size inb_S1x24x192x192_S1x23x192x192_0_0_0_0).toLoadRect.idx (ix4 (0 : Fin 1) d h w)
      = ix4 (0 : Fin 1) (⟨d.val, by omega⟩ : Fin 24) h w := by
  funext a
  apply Fin.ext
  match a with
  | ⟨0, _⟩ => rfl
  | ⟨1, _⟩ => show 0 + 1 * d.val = d.val; omega
  | ⟨2, _⟩ => show 0 + 1 * h.val = h.val; omega
  | ⟨3, _⟩ => show 0 + 1 * w.val = w.val; omega

/-- What the load of planes 0…22 reads after the fifth store. -/
theorem read6 (hA : ∀ (dl : Fin 24) (h w : Fin 192), View.canon (kernelRun.sl.H3_5 (F := Ideal) c arg2 harg2 arg5 x0) (ix4 (0 : Fin 1) dl h w) = S5 x0 dl h w)
    (d : Fin 23) (h w : Fin 192) :
    kernelRun.sl.v41 (F := Ideal) c arg2 harg2 arg5 x0 (ix4 (0 : Fin 1) d h w) = S5 x0 (⟨d.val, by omega⟩ : Fin 24) h w := by
  unfold kernelRun.sl.v41
  rw [View.readCov_eq_canon']
  show View.canon _ ((Rect.unit (s := S1x24x192x192) ![0, 0, 0, 0] S1x23x192x192.size inb_S1x24x192x192_S1x23x192x192_0_0_0_0).toLoadRect.idx (ix4 (0 : Fin 1) d h w)) = _
  rw [box6_idx, hA]

theorem st6 (hA : ∀ (dl : Fin 24) (h w : Fin 192), View.canon (kernelRun.sl.H3_5 (F := Ideal) c arg2 harg2 arg5 x0) (ix4 (0 : Fin 1) dl h w) = S5 x0 dl h w)
    (dl : Fin 24) (h w : Fin 192) :
    View.canon (kernelRun.sl.H3_6 (F := Ideal) c arg2 harg2 arg5 x0) (ix4 (0 : Fin 1) dl h w) = S6 x0 dl h w := by
  unfold kernelRun.sl.H3_6 S6
  by_cases hd : dl.val ≤ 22
  · rw [dif_pos hd]
    rw [canon_unit_of_mem (s := S1x24x192x192) (off := ![0, 0, 0, 0]) (size := S1x23x192x192.size)
      inb_S1x24x192x192_S1x23x192x192_0_0_0_0 _ _ (ix4 (0 : Fin 1) dl h w)
      (ix4 (0 : Fin 1) (⟨dl.val, by omega⟩ : Fin 23) h w) (by
        intro a
        match a with
        | ⟨0, _⟩ => rfl
        | ⟨1, _⟩ => show dl.val = 0 + dl.val; omega
        | ⟨2, _⟩ => show h.val = 0 + h.val; omega
        | ⟨3, _⟩ => show w.val = 0 + w.val; omega)]
    unfold k0_pay15
    rw [shapeCast_self, centre_eq, addf_apply, mulf_apply, broadcast_apply,
      extractStridedSlice_apply ![0, 1, 0, 0] x0 slices_S1x24x192x192_o0_1_0_0_S1x23x192x192
        (ix4 (0 : Fin 1) (⟨dl.val, by omega⟩ : Fin 23) h w) (ix4 (0 : Fin 1) (⟨dl.val + 1, by omega⟩ : Fin 24) h w) (by
          intro a
          match a with
          | ⟨0, _⟩ => rfl
          | ⟨1, _⟩ => show dl.val + 1 = 1 + dl.val; omega
          | ⟨2, _⟩ => show h.val = 0 + h.val; omega
          | ⟨3, _⟩ => show w.val = 0 + w.val; omega),
      read6 c arg2 harg2 arg5 x0 hA]
    rfl
  · rw [dif_neg hd]
    rw [canon_unit_of_not_mem (s := S1x24x192x192) (off := ![0, 0, 0, 0]) (size := S1x23x192x192.size)
      inb_S1x24x192x192_S1x23x192x192_0_0_0_0 _ _ (ix4 (0 : Fin 1) dl h w) 1 (by
      right; show 0 + 23 ≤ dl.val; omega)]
    exact hA dl h w

/-- The tile's place along the second grid axis is below eight. -/
theorem stB_i1_lt : (i 1).val < 8 := (i 1).isLt

/-- The comparison of a tile place below eight with a literal word. -/
theorem stB_cmp_eq0 (n : ℕ) (hn : n < 8) : Scalar.cmpi .eq (BitVec.ofNat 32 n) 0#32 = if n = 0 then 1#1 else 0#1 := by
  interval_cases n <;> rfl
theorem stB_cmp_eq7 (n : ℕ) (hn : n < 8) : Scalar.cmpi .eq (BitVec.ofNat 32 n) 7#32 = if n = 7 then 1#1 else 0#1 := by
  interval_cases n <;> rfl

/-- The box of plane 0 names, at a local index, the site in plane 0. -/
theorem box7_idx (h w : Fin 192) :
    (Rect.unit (s := S1x24x192x192) ![0, 0, 0, 0] S1x1x192x192.size inb_S1x24x192x192_S1x1x192x192_0_0_0_0).toLoadRect.idx (ix4 (0 : Fin 1) (0 : Fin 1) h w)
      = ix4 (0 : Fin 1) (0 : Fin 24) h w := by
  funext a
  apply Fin.ext
  match a with
  | ⟨0, _⟩ => rfl
  | ⟨1, _⟩ => rfl
  | ⟨2, _⟩ => show 0 + 1 * h.val = h.val; omega
  | ⟨3, _⟩ => show 0 + 1 * w.val = w.val; omega

/-- What the load of plane 0 reads after the sixth store. -/
theorem read7 (hA : ∀ (dl : Fin 24) (h w : Fin 192), View.canon (kernelRun.sl.H3_6 (F := Ideal) c arg2 harg2 arg5 x0) (ix4 (0 : Fin 1) dl h w) = S6 x0 dl h w)
    (h w : Fin 192) :
    kernelRun.sl.v58 (F := Ideal) c arg2 harg2 arg5 x0 (ix4 (0 : Fin 1) (0 : Fin 1) h w) = S6 x0 (0 : Fin 24) h w := by
  unfold kernelRun.sl.v58
  rw [View.readCov_eq_canon']
  show View.canon _ ((Rect.unit (s := S1x24x192x192) ![0, 0, 0, 0] S1x1x192x192.size inb_S1x24x192x192_S1x1x192x192_0_0_0_0).toLoadRect.idx (ix4 (0 : Fin 1) (0 : Fin 1) h w)) = _
  rw [box7_idx, hA]

theorem st7 (hA : ∀ (dl : Fin 24) (h w : Fin 192), View.canon (kernelRun.sl.H3_6 (F := Ideal) c arg2 harg2 arg5 x0) (ix4 (0 : Fin 1) dl h w) = S6 x0 dl h w)
    (dl : Fin 24) (h w : Fin 192) :
    View.canon (kernelRun.sl.H3_7 (F := Ideal) c i arg2 harg2 arg3 harg3 arg5 x0 x1) (ix4 (0 : Fin 1) dl h w) = S7 x0 x1 (i 1).val dl h w := by
  unfold kernelRun.sl.H3_7 S7
  by_cases hd : dl.val = 0
  · rw [if_pos hd]
    have hdl : dl = (0 : Fin 24) := Fin.ext hd
    subst hdl
    rw [canon_unit_of_mem (s := S1x24x192x192) (off := ![0, 0, 0, 0]) (size := S1x1x192x192.size)
      inb_S1x24x192x192_S1x1x192x192_0_0_0_0 _ _ (ix4 (0 : Fin 1) (0 : Fin 24) h w)
      (ix4 (0 : Fin 1) (0 : Fin 1) h w) (by
        intro a
        match a with
        | ⟨0, _⟩ => rfl
        | ⟨1, _⟩ => rfl
        | ⟨2, _⟩ => show h.val = 0 + h.val; omega
        | ⟨3, _⟩ => show w.val = 0 + w.val; omega)]
    unfold k0_pay16 kernelRun.sl.r_6
    rw [shapeCast_self, shapeCast_self, load3_eq, addf_apply, mulf_apply, broadcast_apply,
      read7 c arg2 harg2 arg5 x0 hA, stB_cmp_eq0 _ (stB_i1_lt i)]
    by_cases hi : (i 1).val = 0
    · rw [if_pos hi, if_pos hi, select_one, broadcast_apply]; rfl
    · rw [if_neg hi, if_neg hi, select_zero]; rfl
  · rw [if_neg hd]
    rw [canon_unit_of_not_mem (s := S1x24x192x192) (off := ![0, 0, 0, 0]) (size := S1x1x192x192.size)
      inb_S1x24x192x192_S1x1x192x192_0_0_0_0 _ _ (ix4 (0 : Fin 1) dl h w) 1 (by
      right; show 0 + 1 ≤ dl.val; omega)]
    exact hA dl h w

/-- The box of plane 23 names, at a local index, the site in plane 23. -/
theorem box8_idx (h w : Fin 192) :
    (Rect.unit (s := S1x24x192x192) ![0, 23, 0, 0] S1x1x192x192.size inb_S1x24x192x192_S1x1x192x192_0_23_0_0).toLoadRect.idx (ix4 (0 : Fin 1) (0 : Fin 1) h w)
      = ix4 (0 : Fin 1) (23 : Fin 24) h w := by
  funext a
  apply Fin.ext
  match a with
  | ⟨0, _⟩ => rfl
  | ⟨1, _⟩ => rfl
  | ⟨2, _⟩ => show 0 + 1 * h.val = h.val; omega
  | ⟨3, _⟩ => show 0 + 1 * w.val = w.val; omega

/-- What the load of plane 23 reads after the seventh store. -/
theorem read8 (hA : ∀ (dl : Fin 24) (h w : Fin 192), View.canon (kernelRun.sl.H3_7 (F := Ideal) c i arg2 harg2 arg3 harg3 arg5 x0 x1) (ix4 (0 : Fin 1) dl h w) = S7 x0 x1 (i 1).val dl h w)
    (h w : Fin 192) :
    kernelRun.sl.v64 (F := Ideal) c i arg2 harg2 arg3 harg3 arg5 x0 x1 (ix4 (0 : Fin 1) (0 : Fin 1) h w) = S7 x0 x1 (i 1).val (23 : Fin 24) h w := by
  unfold kernelRun.sl.v64
  rw [View.readCov_eq_canon']
  show View.canon _ ((Rect.unit (s := S1x24x192x192) ![0, 23, 0, 0] S1x1x192x192.size inb_S1x24x192x192_S1x1x192x192_0_23_0_0).toLoadRect.idx (ix4 (0 : Fin 1) (0 : Fin 1) h w)) = _
  rw [box8_idx, hA]

theorem st8 (hA : ∀ (dl : Fin 24) (h w : Fin 192), View.canon (kernelRun.sl.H3_7 (F := Ideal) c i arg2 harg2 arg3 harg3 arg5 x0 x1) (ix4 (0 : Fin 1) dl h w) = S7 x0 x1 (i 1).val dl h w)
    (dl : Fin 24) (h w : Fin 192) :
    View.canon (kernelRun.sl.H3_8 (F := Ideal) c i arg2 harg2 arg3 harg3 arg4 harg4 arg5 x0 x1 x2) (ix4 (0 : Fin 1) dl h w) = S8 x0 x1 x2 (i 1).val dl h w := by
  unfold kernelRun.sl.H3_8 S8
  by_cases hd : dl.val = 23
  · rw [if_pos hd]
    have hdl : dl = (23 : Fin 24) := Fin.ext hd
    subst hdl
    rw [canon_unit_of_mem (s := S1x24x192x192) (off := ![0, 23, 0, 0]) (size := S1x1x192x192.size)
      inb_S1x24x192x192_S1x1x192x192_0_23_0_0 _ _ (ix4 (0 : Fin 1) (23 : Fin 24) h w)
      (ix4 (0 : Fin 1) (0 : Fin 1) h w) (by
        intro a
        match a with
        | ⟨0, _⟩ => rfl
        | ⟨1, _⟩ => rfl
        | ⟨2, _⟩ => show h.val = 0 + h.val; omega
        | ⟨3, _⟩ => show w.val = 0 + w.val; omega)]
    unfold k0_pay17
    rw [shapeCast_self, shapeCast_self, load4_eq, addf_apply, mulf_apply, broadcast_apply,
      read8 c i arg2 harg2 arg3 harg3 arg5 x0 x1 hA, stB_cmp_eq7 _ (stB_i1_lt i)]
    by_cases hi : (i 1).val = 7
    · rw [if_pos hi, if_pos hi, select_one, broadcast_apply]; rfl
    · rw [if_neg hi, if_neg hi, select_zero]; rfl
  · rw [if_neg hd]
    rw [canon_unit_of_not_mem (s := S1x24x192x192) (off := ![0, 23, 0, 0]) (size := S1x1x192x192.size)
      inb_S1x24x192x192_S1x1x192x192_0_23_0_0 _ _ (ix4 (0 : Fin 1) dl h w) 1 (by
      left; show dl.val < 23; omega)]
    exact hA dl h w

/-- Stores five to eight, read at a site, from the state after store four. -/
theorem stageB (hA : ∀ (dl : Fin 24) (h w : Fin 192), View.canon (kernelRun.sl.H3_4 (F := Ideal) c arg2 harg2 arg5 x0) (ix4 (0 : Fin 1) dl h w) = S4 x0 dl h w)
    (dl : Fin 24) (h w : Fin 192) :
    View.canon (kernelRun.sl.H3_8 (F := Ideal) c i arg2 harg2 arg3 harg3 arg4 harg4 arg5 x0 x1 x2) (ix4 (0 : Fin 1) dl h w)
      = S8 x0 x1 x2 (i 1).val dl h w :=
  st8 c i arg2 harg2 arg3 harg3 arg4 harg4 arg5 x0 x1 x2
    (st7 c i arg2 harg2 arg3 harg3 arg5 x0 x1
      (st6 c arg2 harg2 arg5 x0 (st5 c arg2 harg2 arg5 x0 hA))) dl h w

end Cert.KernelIdeal.Hand

end
-- ==== Proof.KI.StageC.lean ====
import proofs.«430002_j14946486190476_3_alg».proof.Proof.KI.StageDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Stencil

variable (c : Dev nD) (i : grid0.Coords)
    (arg2 : Memref sig .tc .vmem S1x24x192x192 .f32) (harg2 : arg2.IsWhole)
    (arg3 : Memref sig .tc .vmem S1x1x192x192 .f32) (harg3 : arg3.IsWhole)
    (arg4 : Memref sig .tc .vmem S1x1x192x192 .f32) (harg4 : arg4.IsWhole)
    (arg5 : Memref sig .tc .vmem S1x24x192x192 .f32) (harg5 : arg5.IsWhole)
    (x0 : Vec Ideal S1x24x192x192 .f32) (x1 : Vec Ideal S1x1x192x192 .f32) (x2 : Vec Ideal S1x1x192x192 .f32)

/-! The four face stores, read at a site `(dl, h, w)` of the 24 × 192 × 192 block.

Each of them rewrites one face of the block — the row `h = 0`, the row `h = 191`, the column `w = 0`, the column
`w = 191` — with what the block held there plus `wt · (amb − wrapped)`, where `wrapped` is the centre block's
neighbour that the cyclic shift brought around the end of the axis.  Off the face a site keeps what the earlier
stores left.  For each store: the correction term read at a face index, the loaded value read at a face index, and
then the block's contents after the store, by cases on whether the site lies on the face. -/

/-! ## The row `h = 0` -/

/-- The first face's correction at `(dl, 0, w)`: the ambient value less the centre block one step down the row axis
    from row 0, around the end (row 191). -/
theorem corr9 (dl : Fin 24) (w : Fin 192) :
    kernelRun.sl.r_8 (F := Ideal) c arg2 harg2 x0 (ix4 (0 : Fin 1) dl (0 : Fin 1) w)
      = amb - x0 (ix4 (0 : Fin 1) dl (dn (⟨0, by decide⟩ : Fin 192)) w) := by
  unfold kernelRun.sl.r_8 kernelRun.sl.r_1 k0_pay19 k0_pay3 k0_pay2 k0_pay1
  rw [load2_eq]
  simp only [shapeCast_self]
  rw [subf_apply, broadcast_apply]
  -- the slice of one row at row-offset 0, then the shift by 1 along the row axis
  rw [extractStridedSlice_apply ![0, 0, 0, 0] _ _ (ix4 (0 : Fin 1) dl (0 : Fin 1) w) (ix4 (0 : Fin 1) dl (⟨0, by decide⟩ : Fin 192) w)
    (by intro a; match a with | ⟨0,_⟩ => rfl | ⟨1,_⟩ => (show dl.val = 0 + dl.val; omega) | ⟨2,_⟩ => rfl | ⟨3,_⟩ => (show w.val = 0 + w.val; omega))]
  rw [dynamicRotate_apply 2 1#32 x0 _ (ix4 (0 : Fin 1) dl (⟨0, by decide⟩ : Fin 192) w) (ix4 (0 : Fin 1) dl (dn (⟨0, by decide⟩ : Fin 192)) w)
    (by intro a; match a with | ⟨0,_⟩ => rfl | ⟨1,_⟩ => rfl | ⟨2,_⟩ => rfl | ⟨3,_⟩ => rfl)]
  rfl

/-- What the first face store loads at `(dl, 0, w)`: the block's contents after the eighth store at row 0. -/
theorem load9 (dl : Fin 24) (w : Fin 192) :
    kernelRun.sl.r_7 (F := Ideal) c i arg2 harg2 arg3 harg3 arg4 harg4 arg5 x0 x1 x2 (ix4 (0 : Fin 1) dl (0 : Fin 1) w)
      = View.canon (kernelRun.sl.H3_8 (F := Ideal) c i arg2 harg2 arg3 harg3 arg4 harg4 arg5 x0 x1 x2) (ix4 (0 : Fin 1) dl (⟨0, by decide⟩ : Fin 192) w) := by
  unfold kernelRun.sl.r_7 k0_pay18 kernelRun.sl.v70
  simp only [shapeCast_self]
  rw [View.readCov_eq_canon']
  refine congrArg _ (funext fun a => Fin.ext ?_)
  match a with
  | ⟨0,_⟩ => rfl
  | ⟨1,_⟩ => show 0 + 1 * dl.val = dl.val; omega
  | ⟨2,_⟩ => rfl
  | ⟨3,_⟩ => show 0 + 1 * w.val = w.val; omega

/-- After the ninth store. -/
theorem st9 (hB : ∀ (dl : Fin 24) (h w : Fin 192), View.canon (kernelRun.sl.H3_8 (F := Ideal) c i arg2 harg2 arg3 harg3 arg4 harg4 arg5 x0 x1 x2) (ix4 (0 : Fin 1) dl h w) = S8 x0 x1 x2 (i 1).val dl h w)
    (dl : Fin 24) (h w : Fin 192) :
    View.canon (kernelRun.sl.H3_9 (F := Ideal) c i arg2 harg2 arg3 harg3 arg4 harg4 arg5 x0 x1 x2) (ix4 (0 : Fin 1) dl h w)
      = S9 x0 x1 x2 (i 1).val dl h w := by
  unfold kernelRun.sl.H3_9
  by_cases hh : h.val = 0
  · -- on the face: the payload at `(dl, 0, w)`
    obtain rfl : h = ⟨0, by decide⟩ := Fin.ext hh
    rw [canon_unit_of_mem (s := S1x24x192x192) (off := ![0, 0, 0, 0]) (size := S1x24x1x192.size) inb_S1x24x192x192_S1x24x1x192_0_0_0_0 _ _ (ix4 (0 : Fin 1) dl (⟨0, by decide⟩ : Fin 192) w) (ix4 (0 : Fin 1) dl (0 : Fin 1) w)
      (by intro a; match a with | ⟨0,_⟩ => rfl | ⟨1,_⟩ => (show dl.val = 0 + dl.val; omega) | ⟨2,_⟩ => rfl | ⟨3,_⟩ => (show w.val = 0 + w.val; omega))]
    unfold k0_pay21 k0_pay20
    simp only []
    rw [addf_apply, mulf_apply, broadcast_apply, corr9, load9, hB]
    unfold S9
    rw [if_pos hh]
    rfl
  · -- off the face on the row axis
    rw [canon_unit_of_not_mem (s := S1x24x192x192) (off := ![0, 0, 0, 0]) (size := S1x24x1x192.size) inb_S1x24x192x192_S1x24x1x192_0_0_0_0 _ _ (ix4 (0 : Fin 1) dl h w) 2 (by right; show 0 + 1 ≤ h.val; omega)]
    rw [hB]
    unfold S9
    rw [if_neg hh]

/-! ## The row `h = 191` -/

/-- The wrapped neighbour of the second face at `(dl, 191, w)`: the centre block one step up the row axis from row 191,
    around the end (row 0). -/
theorem corr10 (dl : Fin 24) (w : Fin 192) :
    kernelRun.sl.r_2 (F := Ideal) c arg2 harg2 x0 (ix4 (0 : Fin 1) dl (0 : Fin 1) w)
      = x0 (ix4 (0 : Fin 1) dl (up (⟨191, by decide⟩ : Fin 192)) w) := by
  unfold kernelRun.sl.r_2 k0_pay6 k0_pay5 k0_pay1
  rw [load2_eq]
  simp only [shapeCast_self]
  -- the slice of one row at row-offset 191, then the shift by 191 along the row axis
  rw [extractStridedSlice_apply ![0, 0, 191, 0] _ _ (ix4 (0 : Fin 1) dl (0 : Fin 1) w) (ix4 (0 : Fin 1) dl (⟨191, by decide⟩ : Fin 192) w)
    (by intro a; match a with | ⟨0,_⟩ => rfl | ⟨1,_⟩ => (show dl.val = 0 + dl.val; omega) | ⟨2,_⟩ => rfl | ⟨3,_⟩ => (show w.val = 0 + w.val; omega))]
  rw [dynamicRotate_apply 2 191#32 x0 _ (ix4 (0 : Fin 1) dl (⟨191, by decide⟩ : Fin 192) w) (ix4 (0 : Fin 1) dl (up (⟨191, by decide⟩ : Fin 192)) w)
    (by intro a; match a with | ⟨0,_⟩ => rfl | ⟨1,_⟩ => rfl | ⟨2,_⟩ => rfl | ⟨3,_⟩ => rfl)]

/-- What the second face store loads at `(dl, 191, w)`: the contents after the ninth store at row 191. -/
theorem load10 (dl : Fin 24) (w : Fin 192) :
    kernelRun.sl.v78 (F := Ideal) c i arg2 harg2 arg3 harg3 arg4 harg4 arg5 x0 x1 x2 (ix4 (0 : Fin 1) dl (0 : Fin 1) w)
      = View.canon (kernelRun.sl.H3_9 (F := Ideal) c i arg2 harg2 arg3 harg3 arg4 harg4 arg5 x0 x1 x2) (ix4 (0 : Fin 1) dl (⟨191, by decide⟩ : Fin 192) w) := by
  unfold kernelRun.sl.v78
  rw [View.readCov_eq_canon']
  refine congrArg _ (funext fun a => Fin.ext ?_)
  match a with
  | ⟨0,_⟩ => rfl
  | ⟨1,_⟩ => show 0 + 1 * dl.val = dl.val; omega
  | ⟨2,_⟩ => rfl
  | ⟨3,_⟩ => show 0 + 1 * w.val = w.val; omega

/-- After the tenth store. -/
theorem st10 (hB : ∀ (dl : Fin 24) (h w : Fin 192), View.canon (kernelRun.sl.H3_8 (F := Ideal) c i arg2 harg2 arg3 harg3 arg4 harg4 arg5 x0 x1 x2) (ix4 (0 : Fin 1) dl h w) = S8 x0 x1 x2 (i 1).val dl h w)
    (dl : Fin 24) (h w : Fin 192) :
    View.canon (kernelRun.sl.H3_10 (F := Ideal) c i arg2 harg2 arg3 harg3 arg4 harg4 arg5 x0 x1 x2) (ix4 (0 : Fin 1) dl h w)
      = S10 x0 x1 x2 (i 1).val dl h w := by
  unfold kernelRun.sl.H3_10
  by_cases hh : h.val = 191
  · obtain rfl : h = ⟨191, by decide⟩ := Fin.ext hh
    rw [canon_unit_of_mem (s := S1x24x192x192) (off := ![0, 0, 191, 0]) (size := S1x24x1x192.size) inb_S1x24x192x192_S1x24x1x192_0_0_191_0 _ _ (ix4 (0 : Fin 1) dl (⟨191, by decide⟩ : Fin 192) w) (ix4 (0 : Fin 1) dl (0 : Fin 1) w)
      (by intro a; match a with | ⟨0,_⟩ => rfl | ⟨1,_⟩ => (show dl.val = 0 + dl.val; omega) | ⟨2,_⟩ => rfl | ⟨3,_⟩ => (show w.val = 0 + w.val; omega))]
    unfold k0_pay22
    simp only [shapeCast_self]
    rw [addf_apply, mulf_apply, broadcast_apply, subf_apply, broadcast_apply, corr10, load10, st9 c i arg2 harg2 arg3 harg3 arg4 harg4 arg5 x0 x1 x2 hB]
    unfold S10
    rw [if_pos hh]
    rfl
  · rw [canon_unit_of_not_mem (s := S1x24x192x192) (off := ![0, 0, 191, 0]) (size := S1x24x1x192.size) inb_S1x24x192x192_S1x24x1x192_0_0_191_0 _ _ (ix4 (0 : Fin 1) dl h w) 2 (by left; show h.val < 191; omega)]
    rw [st9 c i arg2 harg2 arg3 harg3 arg4 harg4 arg5 x0 x1 x2 hB]
    unfold S10
    rw [if_neg hh]

/-! ## The column `w = 0` -/

/-- The wrapped neighbour of the third face at `(dl, h, 0)`: the centre block one step down the column axis from
    column 0, around the end (column 191). -/
theorem corr11 (dl : Fin 24) (h : Fin 192) :
    kernelRun.sl.r_3 (F := Ideal) c arg2 harg2 x0 (ix4 (0 : Fin 1) dl h (0 : Fin 1))
      = x0 (ix4 (0 : Fin 1) dl h (dn (⟨0, by decide⟩ : Fin 192))) := by
  unfold kernelRun.sl.r_3 k0_pay9 k0_pay8 k0_pay1
  rw [load2_eq]
  simp only [shapeCast_self]
  -- the slice of one column at column-offset 0, then the shift by 1 along the column axis
  rw [extractStridedSlice_apply ![0, 0, 0, 0] _ _ (ix4 (0 : Fin 1) dl h (0 : Fin 1)) (ix4 (0 : Fin 1) dl h (⟨0, by decide⟩ : Fin 192))
    (by intro a; match a with | ⟨0,_⟩ => rfl | ⟨1,_⟩ => (show dl.val = 0 + dl.val; omega) | ⟨2,_⟩ => (show h.val = 0 + h.val; omega) | ⟨3,_⟩ => rfl)]
  rw [dynamicRotate_apply 3 1#32 x0 _ (ix4 (0 : Fin 1) dl h (⟨0, by decide⟩ : Fin 192)) (ix4 (0 : Fin 1) dl h (dn (⟨0, by decide⟩ : Fin 192)))
    (by intro a; match a with | ⟨0,_⟩ => rfl | ⟨1,_⟩ => rfl | ⟨2,_⟩ => rfl | ⟨3,_⟩ => rfl)]

/-- What the third face store loads at `(dl, h, 0)`: the contents after the tenth store at column 0. -/
theorem load11 (dl : Fin 24) (h : Fin 192) :
    kernelRun.sl.v86 (F := Ideal) c i arg2 harg2 arg3 harg3 arg4 harg4 arg5 x0 x1 x2 (ix4 (0 : Fin 1) dl h (0 : Fin 1))
      = View.canon (kernelRun.sl.H3_10 (F := Ideal) c i arg2 harg2 arg3 harg3 arg4 harg4 arg5 x0 x1 x2) (ix4 (0 : Fin 1) dl h (⟨0, by decide⟩ : Fin 192)) := by
  unfold kernelRun.sl.v86
  rw [View.readCov_eq_canon']
  refine congrArg _ (funext fun a => Fin.ext ?_)
  match a with
  | ⟨0,_⟩ => rfl
  | ⟨1,_⟩ => show 0 + 1 * dl.val = dl.val; omega
  | ⟨2,_⟩ => show 0 + 1 * h.val = h.val; omega
  | ⟨3,_⟩ => rfl

/-- After the eleventh store. -/
theorem st11 (hB : ∀ (dl : Fin 24) (h w : Fin 192), View.canon (kernelRun.sl.H3_8 (F := Ideal) c i arg2 harg2 arg3 harg3 arg4 harg4 arg5 x0 x1 x2) (ix4 (0 : Fin 1) dl h w) = S8 x0 x1 x2 (i 1).val dl h w)
    (dl : Fin 24) (h w : Fin 192) :
    View.canon (kernelRun.sl.H3_11 (F := Ideal) c i arg2 harg2 arg3 harg3 arg4 harg4 arg5 x0 x1 x2) (ix4 (0 : Fin 1) dl h w)
      = S11 x0 x1 x2 (i 1).val dl h w := by
  unfold kernelRun.sl.H3_11
  by_cases hw : w.val = 0
  · obtain rfl : w = ⟨0, by decide⟩ := Fin.ext hw
    rw [canon_unit_of_mem (s := S1x24x192x192) (off := ![0, 0, 0, 0]) (size := S1x24x192x1.size) inb_S1x24x192x192_S1x24x192x1_0_0_0_0 _ _ (ix4 (0 : Fin 1) dl h (⟨0, by decide⟩ : Fin 192)) (ix4 (0 : Fin 1) dl h (0 : Fin 1))
      (by intro a; match a with | ⟨0,_⟩ => rfl | ⟨1,_⟩ => (show dl.val = 0 + dl.val; omega) | ⟨2,_⟩ => (show h.val = 0 + h.val; omega) | ⟨3,_⟩ => rfl)]
    unfold k0_pay23
    simp only [shapeCast_self]
    rw [addf_apply, mulf_apply, broadcast_apply, subf_apply, broadcast_apply, corr11, load11, st10 c i arg2 harg2 arg3 harg3 arg4 harg4 arg5 x0 x1 x2 hB]
    unfold S11
    rw [if_pos hw]
    rfl
  · rw [canon_unit_of_not_mem (s := S1x24x192x192) (off := ![0, 0, 0, 0]) (size := S1x24x192x1.size) inb_S1x24x192x192_S1x24x192x1_0_0_0_0 _ _ (ix4 (0 : Fin 1) dl h w) 3 (by right; show 0 + 1 ≤ w.val; omega)]
    rw [st10 c i arg2 harg2 arg3 harg3 arg4 harg4 arg5 x0 x1 x2 hB]
    unfold S11
    rw [if_neg hw]

/-! ## The column `w = 191` -/

/-- The wrapped neighbour of the fourth face at `(dl, h, 191)`: the centre block one step up the column axis from
    column 191, around the end (column 0). -/
theorem corr12 (dl : Fin 24) (h : Fin 192) :
    kernelRun.sl.r_5 (F := Ideal) c arg2 harg2 x0 (ix4 (0 : Fin 1) dl h (0 : Fin 1))
      = x0 (ix4 (0 : Fin 1) dl h (up (⟨191, by decide⟩ : Fin 192))) := by
  unfold kernelRun.sl.r_5
  rw [centre_eq]
  unfold k0_pay12 k0_pay11
  simp only []
  -- the slice of one column at column-offset 191, then the shift by 191 along the column axis
  rw [extractStridedSlice_apply ![0, 0, 0, 191] _ _ (ix4 (0 : Fin 1) dl h (0 : Fin 1)) (ix4 (0 : Fin 1) dl h (⟨191, by decide⟩ : Fin 192))
    (by intro a; match a with | ⟨0,_⟩ => rfl | ⟨1,_⟩ => (show dl.val = 0 + dl.val; omega) | ⟨2,_⟩ => (show h.val = 0 + h.val; omega) | ⟨3,_⟩ => rfl)]
  rw [dynamicRotate_apply 3 191#32 x0 _ (ix4 (0 : Fin 1) dl h (⟨191, by decide⟩ : Fin 192)) (ix4 (0 : Fin 1) dl h (up (⟨191, by decide⟩ : Fin 192)))
    (by intro a; match a with | ⟨0,_⟩ => rfl | ⟨1,_⟩ => rfl | ⟨2,_⟩ => rfl | ⟨3,_⟩ => rfl)]

/-- What the fourth face store loads at `(dl, h, 191)`: the contents after the eleventh store at column 191. -/
theorem load12 (dl : Fin 24) (h : Fin 192) :
    kernelRun.sl.v94 (F := Ideal) c i arg2 harg2 arg3 harg3 arg4 harg4 arg5 x0 x1 x2 (ix4 (0 : Fin 1) dl h (0 : Fin 1))
      = View.canon (kernelRun.sl.H3_11 (F := Ideal) c i arg2 harg2 arg3 harg3 arg4 harg4 arg5 x0 x1 x2) (ix4 (0 : Fin 1) dl h (⟨191, by decide⟩ : Fin 192)) := by
  unfold kernelRun.sl.v94
  rw [View.readCov_eq_canon']
  refine congrArg _ (funext fun a => Fin.ext ?_)
  match a with
  | ⟨0,_⟩ => rfl
  | ⟨1,_⟩ => show 0 + 1 * dl.val = dl.val; omega
  | ⟨2,_⟩ => show 0 + 1 * h.val = h.val; omega
  | ⟨3,_⟩ => rfl

/-- After the twelfth store — all the body leaves in the output block: from the state after the eighth store, the four
    face corrections one after the other. -/
theorem stageC (hB : ∀ (dl : Fin 24) (h w : Fin 192), View.canon (kernelRun.sl.H3_8 (F := Ideal) c i arg2 harg2 arg3 harg3 arg4 harg4 arg5 x0 x1 x2) (ix4 (0 : Fin 1) dl h w) = S8 x0 x1 x2 (i 1).val dl h w)
    (dl : Fin 24) (h w : Fin 192) :
    View.canon (kernelRun (F := Ideal) c i arg2 harg2 arg3 harg3 arg4 harg4 arg5 harg5 x0 x1 x2).1 (ix4 (0 : Fin 1) dl h w)
      = S12 x0 x1 x2 (i 1).val dl h w := by
  unfold kernelRun
  dsimp only
  by_cases hw : w.val = 191
  · obtain rfl : w = ⟨191, by decide⟩ := Fin.ext hw
    rw [canon_unit_of_mem (s := S1x24x192x192) (off := ![0, 0, 0, 191]) (size := S1x24x192x1.size) inb_S1x24x192x192_S1x24x192x1_0_0_0_191 _ _ (ix4 (0 : Fin 1) dl h (⟨191, by decide⟩ : Fin 192)) (ix4 (0 : Fin 1) dl h (0 : Fin 1))
      (by intro a; match a with | ⟨0,_⟩ => rfl | ⟨1,_⟩ => (show dl.val = 0 + dl.val; omega) | ⟨2,_⟩ => (show h.val = 0 + h.val; omega) | ⟨3,_⟩ => rfl)]
    unfold kernelRun.sl.r_9 k0_pay24
    simp only [shapeCast_self]
    rw [addf_apply, mulf_apply, broadcast_apply, subf_apply, broadcast_apply, corr12, load12, st11 c i arg2 harg2 arg3 harg3 arg4 harg4 arg5 x0 x1 x2 hB]
    unfold S12
    rw [if_pos hw]
    rfl
  · rw [canon_unit_of_not_mem (s := S1x24x192x192) (off := ![0, 0, 0, 191]) (size := S1x24x192x1.size) inb_S1x24x192x192_S1x24x192x1_0_0_0_191 _ _ (ix4 (0 : Fin 1) dl h w) 3 (by left; show w.val < 191; omega)]
    rw [st11 c i arg2 harg2 arg3 harg3 arg4 harg4 arg5 x0 x1 x2 hB]
    unfold S12
    rw [if_neg hw]

end Cert.KernelIdeal.Hand

end
-- ==== Proof.KI.Tile.lean ====
import proofs.«430002_j14946486190476_3_alg».proof.Proof.KI.StageDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Stencil

/-! The tile-local reading of the twelve stores is the global accumulation formula: at the site `(dl, h, w)` of the
    tile `di` of 24 planes, what the stores leave is `klap` of the whole field at depth `24 · di + dl`.  Pure case
    analysis on the position of the plane inside the tile; both sides are the same sum, term by term. -/

/-- The field depends on the depth coordinate only through its value. -/
theorem fld_congr (fld : Fin 4 → Fin 192 → Fin 192 → Fin 192 → EReal) (b : Fin 4) (a a' : Fin 192) (h w : Fin 192)
    (e : a.val = a'.val) : fld b a h w = fld b a' h w := by
  rw [Fin.ext e]

section Tile

variable (fld : Fin 4 → Fin 192 → Fin 192 → Fin 192 → EReal) (b : Fin 4) (di : Fin 8)
    (x0 : S1x24x192x192.Idx → EReal) (x1 x2 : S1x1x192x192.Idx → EReal)
    (h0 : ∀ (dl : Fin 24) (h w : Fin 192), x0 (ix4 (0 : Fin 1) dl h w) = fld b ⟨24 * di.val + dl.val, by omega⟩ h w)
    (h1 : ∀ (h w : Fin 192), x1 (ix4 (0 : Fin 1) (0 : Fin 1) h w) = fld b ⟨if di.val = 0 then 0 else 24 * di.val - 1, by split <;> omega⟩ h w)
    (h2 : ∀ (h w : Fin 192), x2 (ix4 (0 : Fin 1) (0 : Fin 1) h w) = fld b ⟨if di.val = 7 then 191 else 24 * di.val + 24, by split <;> omega⟩ h w)

include h0 in
/-- The in-plane part: the centre term and the four cyclic in-plane neighbours, read through the centre block. -/
theorem S4_eq (dl : Fin 24) (h w : Fin 192) (d : Fin 192) (hd : d.val = 24 * di.val + dl.val) :
    S4 x0 dl h w = (((cc * fld b d h w + wt * cycm (fun k => fld b d k w) h) + wt * cycp (fun k => fld b d k w) h)
      + wt * cycm (fun k => fld b d h k) w) + wt * cycp (fun k => fld b d h k) w := by
  have e : (⟨24 * di.val + dl.val, by omega⟩ : Fin 192) = d := Fin.ext hd.symm
  simp only [S4, cycm, cycp, dn, up, h0, e]

include h0 in
/-- The plane below inside the tile is the lower depth neighbour. -/
theorem below_in (dl : Fin 24) (h w : Fin 192) (d : Fin 192) (hd : d.val = 24 * di.val + dl.val) (hp : 1 ≤ dl.val) :
    x0 (ix4 (0 : Fin 1) (⟨dl.val - 1, by omega⟩ : Fin 24) h w) = below (fun k => fld b k h w) d := by
  have hne : ¬ d.val = 0 := by omega
  unfold below
  rw [dif_neg hne, h0]
  refine fld_congr fld b _ _ h w ?_
  show 24 * di.val + (dl.val - 1) = d.val - 1
  omega

include h0 in
/-- The plane above inside the tile is the upper depth neighbour. -/
theorem above_in (dl : Fin 24) (h w : Fin 192) (d : Fin 192) (hd : d.val = 24 * di.val + dl.val) (hp : dl.val ≤ 22) :
    x0 (ix4 (0 : Fin 1) (⟨dl.val + 1, by omega⟩ : Fin 24) h w) = above (fun k => fld b k h w) d := by
  have hne : ¬ d.val = 191 := by omega
  unfold above
  rw [dif_neg hne, h0]
  refine fld_congr fld b _ _ h w ?_
  show 24 * di.val + (dl.val + 1) = d.val + 1
  omega

include h1 in
/-- Under the first plane of a tile: the plane below the tile, the ambient value in the first tile. -/
theorem below_out (dl : Fin 24) (h w : Fin 192) (d : Fin 192) (hd : d.val = 24 * di.val + dl.val) (hp : dl.val = 0) :
    (if di.val = 0 then amb else x1 (ix4 (0 : Fin 1) (0 : Fin 1) h w)) = below (fun k => fld b k h w) d := by
  unfold below
  by_cases hz : di.val = 0
  · have hd0 : d.val = 0 := by omega
    rw [if_pos hz, dif_pos hd0]
  · have hd0 : ¬ d.val = 0 := by omega
    rw [if_neg hz, dif_neg hd0, h1]
    refine fld_congr fld b _ _ h w ?_
    show (if di.val = 0 then 0 else 24 * di.val - 1) = d.val - 1
    rw [if_neg hz]
    omega

include h2 in
/-- Over the last plane of a tile: the plane above the tile, the ambient value in the last tile. -/
theorem above_out (dl : Fin 24) (h w : Fin 192) (d : Fin 192) (hd : d.val = 24 * di.val + dl.val) (hp : dl.val = 23) :
    (if di.val = 7 then amb else x2 (ix4 (0 : Fin 1) (0 : Fin 1) h w)) = above (fun k => fld b k h w) d := by
  have hdi := di.isLt
  unfold above
  by_cases hz : di.val = 7
  · have hd0 : d.val = 191 := by omega
    rw [if_pos hz, dif_pos hd0]
  · have hd0 : ¬ d.val = 191 := by omega
    rw [if_neg hz, dif_neg hd0, h2]
    refine fld_congr fld b _ _ h w ?_
    show (if di.val = 7 then 191 else 24 * di.val + 24) = d.val + 1
    rw [if_neg hz]
    omega

include h0 h1 h2 in
/-- The depth part: the lower neighbour first, except on the first plane of a tile. -/
theorem S8_eq (dl : Fin 24) (h w : Fin 192) (d : Fin 192) (hd : d.val = 24 * di.val + dl.val) :
    S8 x0 x1 x2 di.val dl h w =
      if d.val % 24 = 0
      then (S4 x0 dl h w + wt * above (fun k => fld b k h w) d) + wt * below (fun k => fld b k h w) d
      else (S4 x0 dl h w + wt * below (fun k => fld b k h w) d) + wt * above (fun k => fld b k h w) d := by
  have hdl := dl.isLt
  have hdi := di.isLt
  unfold S8 S7 S6 S5
  rcases Nat.lt_or_ge 0 dl.val with hpos | hzero
  · have hm : ¬ d.val % 24 = 0 := by omega
    have hn0 : ¬ dl.val = 0 := by omega
    have h1le : 1 ≤ dl.val := by omega
    rw [if_neg hm, if_neg hn0, dif_pos h1le]
    by_cases h23 : dl.val = 23
    · have hn22 : ¬ dl.val ≤ 22 := by omega
      rw [if_pos h23, dif_neg hn22, below_in fld b di x0 h0 dl h w d hd h1le,
        above_out fld b di x2 h2 dl h w d hd h23]
    · have h22 : dl.val ≤ 22 := by omega
      rw [if_neg h23, dif_pos h22, below_in fld b di x0 h0 dl h w d hd h1le,
        above_in fld b di x0 h0 dl h w d hd h22]
  · have hz : dl.val = 0 := by omega
    have hm : d.val % 24 = 0 := by omega
    have hn23 : ¬ dl.val = 23 := by omega
    have hn1 : ¬ 1 ≤ dl.val := by omega
    have h22 : dl.val ≤ 22 := by omega
    rw [if_pos hm, if_neg hn23, if_pos hz, dif_pos h22, dif_neg hn1,
      above_in fld b di x0 h0 dl h w d hd h22, below_out fld b di x1 h1 dl h w d hd hz]

include h0 h1 h2 in
theorem S12_eq_klap_aux (dl : Fin 24) (h w : Fin 192) (d : Fin 192) (hd : d.val = 24 * di.val + dl.val) :
    S12 x0 x1 x2 di.val dl h w = klap fld b d h w := by
  have e : (⟨24 * di.val + dl.val, by omega⟩ : Fin 192) = d := Fin.ext hd.symm
  have f1 : x0 (ix4 (0 : Fin 1) dl (dn h) w) = cycm (fun k => fld b d k w) h := by simp only [cycm, dn, h0, e]
  have f2 : x0 (ix4 (0 : Fin 1) dl (up h) w) = cycp (fun k => fld b d k w) h := by simp only [cycp, up, h0, e]
  have f3 : x0 (ix4 (0 : Fin 1) dl h (dn w)) = cycm (fun k => fld b d h k) w := by simp only [cycm, dn, h0, e]
  have f4 : x0 (ix4 (0 : Fin 1) dl h (up w)) = cycp (fun k => fld b d h k) w := by simp only [cycp, up, h0, e]
  unfold S12 S11 S10 S9
  rw [f1, f2, f3, f4, S8_eq fld b di x0 x1 x2 h0 h1 h2 dl h w d hd, S4_eq fld b di x0 h0 dl h w d hd]
  rfl

end Tile

/-- What the twelve stores leave at a site of a tile is the accumulation formula of the whole field there. -/
theorem S12_eq_klap (fld : Fin 4 → Fin 192 → Fin 192 → Fin 192 → EReal) (b : Fin 4) (di : Fin 8)
    (x0 : S1x24x192x192.Idx → EReal) (x1 x2 : S1x1x192x192.Idx → EReal)
    (h0 : ∀ (dl : Fin 24) (h w : Fin 192), x0 (ix4 (0 : Fin 1) dl h w) = fld b ⟨24 * di.val + dl.val, by omega⟩ h w)
    (h1 : ∀ (h w : Fin 192), x1 (ix4 (0 : Fin 1) (0 : Fin 1) h w) = fld b ⟨if di.val = 0 then 0 else 24 * di.val - 1, by split <;> omega⟩ h w)
    (h2 : ∀ (h w : Fin 192), x2 (ix4 (0 : Fin 1) (0 : Fin 1) h w) = fld b ⟨if di.val = 7 then 191 else 24 * di.val + 24, by split <;> omega⟩ h w)
    (dl : Fin 24) (h w : Fin 192) :
    S12 x0 x1 x2 di.val dl h w = klap fld b ⟨24 * di.val + dl.val, by omega⟩ h w :=
  S12_eq_klap_aux fld b di x0 x1 x2 h0 h1 h2 dl h w _ rfl

end Cert.KernelIdeal.Hand

end
-- ==== Proof.KI.Blocks.lean ====
import proofs.«430002_j14946486190476_3_alg».proof.Proof.KI.StageDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Where a site of a window's block sits in the window's array: the three input windows read the field's 24-plane
    tile, the one plane below it (the tile's own first plane in the first tile) and the one plane above it (the tile's
    own last plane in the last tile); the output window writes the same tile. -/

open Idealize.ShloMosaic.ValueIdx Cert.Stencil

/-- The printed index maps over the 4 × 8 grid, in closed form. -/
theorem idx_facts : ∀ t : Fin cfg0.N,
    win0_0.index t (0 : Fin 4) = (grid0.coords t (0 : Fin 2)).val ∧ win0_0.index t (1 : Fin 4) = (grid0.coords t (1 : Fin 2)).val
    ∧ win0_0.index t (2 : Fin 4) = 0 ∧ win0_0.index t (3 : Fin 4) = 0
    ∧ win0_1.index t (0 : Fin 4) = (grid0.coords t (0 : Fin 2)).val
    ∧ win0_1.index t (1 : Fin 4) = (if (grid0.coords t (1 : Fin 2)).val = 0 then 0 else 24 * (grid0.coords t (1 : Fin 2)).val - 1)
    ∧ win0_1.index t (2 : Fin 4) = 0 ∧ win0_1.index t (3 : Fin 4) = 0
    ∧ win0_2.index t (0 : Fin 4) = (grid0.coords t (0 : Fin 2)).val
    ∧ win0_2.index t (1 : Fin 4) = (if (grid0.coords t (1 : Fin 2)).val = 7 then 191 else 24 * (grid0.coords t (1 : Fin 2)).val + 24)
    ∧ win0_2.index t (2 : Fin 4) = 0 ∧ win0_2.index t (3 : Fin 4) = 0
    ∧ win0_3.index t (0 : Fin 4) = (grid0.coords t (0 : Fin 2)).val ∧ win0_3.index t (1 : Fin 4) = (grid0.coords t (1 : Fin 2)).val
    ∧ win0_3.index t (2 : Fin 4) = 0 ∧ win0_3.index t (3 : Fin 4) = 0 :=
  (by decide +kernel : ∀ t : Fin grid0.N, _)

/-- Every (batch, tile) pair is some grid point's. -/
theorem idx_onto : ∀ (b : Fin 4) (di : Fin 8), ∃ t : Fin cfg0.N, (grid0.coords t (0 : Fin 2)).val = b.val ∧ (grid0.coords t (1 : Fin 2)).val = di.val :=
  (by decide +kernel : ∀ (b : Fin 4) (di : Fin 8), ∃ t : Fin grid0.N, (grid0.coords t (0 : Fin 2)).val = b.val ∧ (grid0.coords t (1 : Fin 2)).val = di.val)

section
variable (V : (c : Dev nD) → (b : Ref sig .tc) → Buf (Elt Ideal) ((c : Thread nD τ).loc b)) (c : Dev nD) (t : Fin cfg0.N)

/-- The batch and tile coordinates of a grid point, as literal-range numbers. -/
def bOf : Fin 4 := ⟨(grid0.coords t (0 : Fin 2)).val, (grid0.coords t (0 : Fin 2)).isLt⟩
def dOf : Fin 8 := ⟨(grid0.coords t (1 : Fin 2)).val, (grid0.coords t (1 : Fin 2)).isLt⟩

/-- The field the region finds in the windows' shared array, by coordinates. -/
def fld : Fin 4 → Fin 192 → Fin 192 → Fin 192 → EReal := fun b d h w => V c main_v0 (ix4 b d h w)

theorem blk0_apply (dl : Fin 24) (h w : Fin 192) :
    iblk V c 0 t (ix4 (0 : Fin 1) dl h w) = fld V c (bOf t) ⟨24 * (dOf t).val + dl.val, by have := (dOf t).isLt; omega⟩ h w := by
  obtain ⟨e0, e1, e2, e3, -⟩ := idx_facts t
  show V c main_v0 (((cfg0.win 0).blk t).view.emb (ix4 (0 : Fin 1) dl h w)) = V c main_v0 _
  refine congrArg (V c main_v0) (funext fun a => Fin.ext ?_)
  match a with
  | ⟨0, _⟩ => show win0_0.index t (0 : Fin 4) * 1 + 1 * 0 = (grid0.coords t (0 : Fin 2)).val; omega
  | ⟨1, _⟩ => show win0_0.index t (1 : Fin 4) * 24 + 1 * dl.val = 24 * (grid0.coords t (1 : Fin 2)).val + dl.val; omega
  | ⟨2, _⟩ => show win0_0.index t (2 : Fin 4) * 192 + 1 * h.val = h.val; omega
  | ⟨3, _⟩ => show win0_0.index t (3 : Fin 4) * 192 + 1 * w.val = w.val; omega

theorem blk1_apply (h w : Fin 192) :
    iblk V c 1 t (ix4 (0 : Fin 1) (0 : Fin 1) h w)
      = fld V c (bOf t) ⟨if (dOf t).val = 0 then 0 else 24 * (dOf t).val - 1, by have := (dOf t).isLt; split <;> omega⟩ h w := by
  obtain ⟨-, -, -, -, e0, e1, e2, e3, -⟩ := idx_facts t
  show V c main_v0 (((cfg0.win 1).blk t).view.emb (ix4 (0 : Fin 1) (0 : Fin 1) h w)) = V c main_v0 _
  refine congrArg (V c main_v0) (funext fun a => Fin.ext ?_)
  match a with
  | ⟨0, _⟩ => show win0_1.index t (0 : Fin 4) * 1 + 1 * 0 = (grid0.coords t (0 : Fin 2)).val; omega
  | ⟨1, _⟩ =>
    show win0_1.index t (1 : Fin 4) * 1 + 1 * 0 = (if (grid0.coords t (1 : Fin 2)).val = 0 then 0 else 24 * (grid0.coords t (1 : Fin 2)).val - 1)
    rw [Nat.mul_one, Nat.mul_zero, Nat.add_zero]; exact e1
  | ⟨2, _⟩ => show win0_1.index t (2 : Fin 4) * 192 + 1 * h.val = h.val; omega
  | ⟨3, _⟩ => show win0_1.index t (3 : Fin 4) * 192 + 1 * w.val = w.val; omega

theorem blk2_apply (h w : Fin 192) :
    iblk V c 2 t (ix4 (0 : Fin 1) (0 : Fin 1) h w)
      = fld V c (bOf t) ⟨if (dOf t).val = 7 then 191 else 24 * (dOf t).val + 24, by have := (dOf t).isLt; split <;> omega⟩ h w := by
  obtain ⟨-, -, -, -, -, -, -, -, e0, e1, e2, e3, -⟩ := idx_facts t
  show V c main_v0 (((cfg0.win 2).blk t).view.emb (ix4 (0 : Fin 1) (0 : Fin 1) h w)) = V c main_v0 _
  refine congrArg (V c main_v0) (funext fun a => Fin.ext ?_)
  match a with
  | ⟨0, _⟩ => show win0_2.index t (0 : Fin 4) * 1 + 1 * 0 = (grid0.coords t (0 : Fin 2)).val; omega
  | ⟨1, _⟩ =>
    show win0_2.index t (1 : Fin 4) * 1 + 1 * 0 = (if (grid0.coords t (1 : Fin 2)).val = 7 then 191 else 24 * (grid0.coords t (1 : Fin 2)).val + 24)
    rw [Nat.mul_one, Nat.mul_zero, Nat.add_zero]; exact e1
  | ⟨2, _⟩ => show win0_2.index t (2 : Fin 4) * 192 + 1 * h.val = h.val; omega
  | ⟨3, _⟩ => show win0_2.index t (3 : Fin 4) * 192 + 1 * w.val = w.val; omega

/-- Where a site of the output block sits in the output array: the same tile. -/
theorem emb3_apply (dl : Fin 24) (h w : Fin 192) :
    ((cfg0.win 3).blk t).view.emb (ix4 (0 : Fin 1) dl h w)
      = (ix4 (bOf t) (⟨24 * (dOf t).val + dl.val, by have := (dOf t).isLt; omega⟩ : Fin 192) h w : S4x192x192x192.Idx) := by
  obtain ⟨-, -, -, -, -, -, -, -, -, -, -, -, e0, e1, e2, e3⟩ := idx_facts t
  refine funext fun a => Fin.ext ?_
  match a with
  | ⟨0, _⟩ => show win0_3.index t (0 : Fin 4) * 1 + 1 * 0 = (grid0.coords t (0 : Fin 2)).val; omega
  | ⟨1, _⟩ => show win0_3.index t (1 : Fin 4) * 24 + 1 * dl.val = 24 * (grid0.coords t (1 : Fin 2)).val + dl.val; omega
  | ⟨2, _⟩ => show win0_3.index t (2 : Fin 4) * 192 + 1 * h.val = h.val; omega
  | ⟨3, _⟩ => show win0_3.index t (3 : Fin 4) * 192 + 1 * w.val = w.val; omega

end

/-- An index of the output array is in point `t`'s block iff each coordinate is in the block's range on its axis. -/
theorem mem_blk3 (t : Fin cfg0.N) (i : S4x192x192x192.Idx) :
    i ∈ ((cfg0.win 3).blk t).view.set ↔ ∀ a : Fin 4, win0_3.index t a * S1x24x192x192.size a ≤ (i a).val ∧ (i a).val < win0_3.index t a * S1x24x192x192.size a + S1x24x192x192.size a := by
  show i ∈ ((View.whole main_v1).slice (win0_3.rect t)).set ↔ _
  rw [View.set_slice_whole, Rect.mem_set_unit]
  exact Iff.rfl

/-- Every index of the output array is in some grid point's block: the tiles fill the box. -/
theorem covered3 (i : S4x192x192x192.Idx) :
    ∃ t : Fin cfg0.N, (cfg0.win 3).flush t = true ∧ i ∈ ((cfg0.win 3).blk t).view.set := by
  have hi0 : (i 0).val < 4 := (i 0).isLt
  have hi1 : (i 1).val < 192 := (i 1).isLt
  have hi2 : (i 2).val < 192 := (i 2).isLt
  have hi3 : (i 3).val < 192 := (i 3).isLt
  obtain ⟨t, hb, hd⟩ := idx_onto ⟨(i 0).val, hi0⟩ ⟨(i 1).val / 24, by omega⟩
  obtain ⟨-, -, -, -, -, -, -, -, -, -, -, -, e0, e1, e2, e3⟩ := idx_facts t
  have hb' : (grid0.coords t (0 : Fin 2)).val = (i 0).val := hb
  have hd' : (grid0.coords t (1 : Fin 2)).val = (i 1).val / 24 := hd
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 24 ≤ (i 1).val ∧ (i 1).val < win0_3.index t (1 : Fin 4) * 24 + 24; omega
  | ⟨2, _⟩ => show win0_3.index t (2 : Fin 4) * 192 ≤ (i 2).val ∧ (i 2).val < win0_3.index t (2 : Fin 4) * 192 + 192; omega
  | ⟨3, _⟩ => show win0_3.index t (3 : Fin 4) * 192 ≤ (i 3).val ∧ (i 3).val < win0_3.index t (3 : Fin 4) * 192 + 192; omega

end Cert.KernelIdeal.Hand

end
-- ==== Proof.Algebra.lean ====
import proofs.«430002_j14946486190476_3_alg».proof.Proof.Spec
import Mathlib.Data.EReal.Operations
import Mathlib.Tactic.Ring
import Mathlib.Tactic.NormNum

/-! The tiled accumulation of the seven-point stencil equals the stencil itself on a finite field.

When every field value and the three constants are real numbers, both sides are sums and products of reals
carried into the extended reals, so the identity is one of real arithmetic.  The clamped neighbours are the
cyclic neighbours away from the faces and the ambient value on them; on a face the wrapped neighbour enters
the tiled sum once with weight `wt` and once inside `wt · (amb − wrapped)`, and the two cancel, leaving
`wt · amb`.  The order in which the two depth neighbours are added does not matter in a commutative ring. -/

namespace Cert.Stencil

open Idealize.ShloMosaic

/-- The centre weight is a real number (−60000). -/
theorem cc_real : ∃ r : ℝ, cc = (r : EReal) := by
  refine ⟨-60000, ?_⟩
  simp [cc, Ideal.ofBits, Ideal.ieee, -EReal.coe_mul]; norm_num

/-- The neighbour weight is a real number (10000). -/
theorem wt_real : ∃ r : ℝ, wt = (r : EReal) := by
  refine ⟨10000, ?_⟩
  simp [wt, Ideal.ofBits, Ideal.ieee, -EReal.coe_mul]; norm_num

/-- The ambient value is a real number (300). -/
theorem amb_real : ∃ r : ℝ, amb = (r : EReal) := by
  refine ⟨300, ?_⟩
  simp [amb, Ideal.ofBits, Ideal.ieee, -EReal.coe_mul]; norm_num

/-- The lower neighbour is the ambient value at the lower end and the cyclic lower neighbour elsewhere:
    for `k ≠ 0`, `(k + 191) mod 192 = k − 1`. -/
theorem below_eq (f : Fin 192 → EReal) (k : Fin 192) :
    below f k = if k.val = 0 then amb else cycm f k := by
  unfold below cycm
  split_ifs with h
  · rfl
  · congr 1; apply Fin.ext; simp only []; omega

/-- The upper neighbour is the ambient value at the upper end and the cyclic upper neighbour elsewhere:
    for `k ≠ 191`, `(k + 1) mod 192 = k + 1`. -/
theorem above_eq (f : Fin 192 → EReal) (k : Fin 192) :
    above f k = if k.val = 191 then amb else cycp f k := by
  unfold above cycp
  split_ifs with h
  · rfl
  · congr 1; apply Fin.ext; simp only []; omega

/-- On a line of real values the lower neighbour is real. -/
theorem below_real (f : Fin 192 → EReal) (hf : ∀ k, ∃ r : ℝ, f k = (r : EReal)) (k : Fin 192) :
    ∃ r : ℝ, below f k = (r : EReal) := by
  unfold below
  split_ifs with h
  · exact amb_real
  · exact hf _

/-- On a line of real values the upper neighbour is real. -/
theorem above_real (f : Fin 192 → EReal) (hf : ∀ k, ∃ r : ℝ, f k = (r : EReal)) (k : Fin 192) :
    ∃ r : ℝ, above f k = (r : EReal) := by
  unfold above
  split_ifs with h
  · exact amb_real
  · exact hf _

/-- The identity over ten real quantities and five arbitrary conditions.  `P` chooses the order of the two depth
    neighbours; `Q0, Q1, R0, R1` mark the four in-plane faces.  In each of the 32 cases both sides are the same
    polynomial in the reals: a face contributes `T · M + T · (A − M) = T · A`. -/
theorem core (C X T A BD AD MH PH MW PW : EReal)
    (hC : ∃ r : ℝ, C = (r : EReal)) (hX : ∃ r : ℝ, X = (r : EReal)) (hT : ∃ r : ℝ, T = (r : EReal))
    (hA : ∃ r : ℝ, A = (r : EReal)) (hBD : ∃ r : ℝ, BD = (r : EReal)) (hAD : ∃ r : ℝ, AD = (r : EReal))
    (hMH : ∃ r : ℝ, MH = (r : EReal)) (hPH : ∃ r : ℝ, PH = (r : EReal))
    (hMW : ∃ r : ℝ, MW = (r : EReal)) (hPW : ∃ r : ℝ, PW = (r : EReal))
    (P Q0 Q1 R0 R1 : Prop) [Decidable P] [Decidable Q0] [Decidable Q1] [Decidable R0] [Decidable R1] :
    (let s4 := (((C * X + T * MH) + T * PH) + T * MW) + T * PW
     let s8 := if P then (s4 + T * AD) + T * BD else (s4 + T * BD) + T * AD
     let s9 := if Q0 then s8 + T * (A - MH) else s8
     let s10 := if Q1 then s9 + T * (A - PH) else s9
     let s11 := if R0 then s10 + T * (A - MW) else s10
     if R1 then s11 + T * (A - PW) else s11)
    = ((C * X + T * (BD + AD)) + T * ((if Q0 then A else MH) + (if Q1 then A else PH)))
        + T * ((if R0 then A else MW) + (if R1 then A else PW)) := by
  obtain ⟨c, rfl⟩ := hC
  obtain ⟨x, rfl⟩ := hX
  obtain ⟨t, rfl⟩ := hT
  obtain ⟨a, rfl⟩ := hA
  obtain ⟨bd, rfl⟩ := hBD
  obtain ⟨ad, rfl⟩ := hAD
  obtain ⟨mh, rfl⟩ := hMH
  obtain ⟨ph, rfl⟩ := hPH
  obtain ⟨mw, rfl⟩ := hMW
  obtain ⟨pw, rfl⟩ := hPW
  by_cases hP : P <;> by_cases hQ0 : Q0 <;> by_cases hQ1 : Q1 <;> by_cases hR0 : R0 <;> by_cases hR1 : R1 <;>
    simp only [hP, hQ0, hQ1, hR0, hR1, if_true, if_false] <;>
    simp only [← EReal.coe_add, ← EReal.coe_mul, ← EReal.coe_sub] <;>
    (congr 1; ring)

/-- The tiled accumulation equals the stencil at every site of a field of real values. -/
theorem klap_eq_lap (x : Fin 4 → Fin 192 → Fin 192 → Fin 192 → EReal)
    (hfin : ∀ b d h w, ∃ r : ℝ, x b d h w = (r : EReal)) (b : Fin 4) (d h w : Fin 192) :
    klap x b d h w = lap x b d h w := by
  unfold lap
  rw [below_eq (fun k => x b d k w) h, above_eq (fun k => x b d k w) h,
    below_eq (fun k => x b d h k) w, above_eq (fun k => x b d h k) w]
  exact core cc (x b d h w) wt amb (below (fun k => x b k h w) d) (above (fun k => x b k h w) d)
    (cycm (fun k => x b d k w) h) (cycp (fun k => x b d k w) h)
    (cycm (fun k => x b d h k) w) (cycp (fun k => x b d h k) w)
    cc_real (hfin b d h w) wt_real amb_real
    (below_real _ (fun k => hfin b k h w) d) (above_real _ (fun k => hfin b k h w) d)
    (hfin b d _ w) (hfin b d _ w) (hfin b d h _) (hfin b d h _)
    (d.val % 24 = 0) (h.val = 0) (h.val = 191) (w.val = 0) (w.val = 191)

end Cert.Stencil
-- ==== Proof.KI.Value.lean ====
import proofs.«430002_j14946486190476_3_alg».proof.Proof.KI.StageA
import proofs.«430002_j14946486190476_3_alg».proof.Proof.KI.StageB
import proofs.«430002_j14946486190476_3_alg».proof.Proof.KI.StageC
import proofs.«430002_j14946486190476_3_alg».proof.Proof.KI.Tile
import proofs.«430002_j14946486190476_3_alg».proof.Proof.KI.Blocks
import proofs.«430002_j14946486190476_3_alg».proof.Proof.KI.Entry
import proofs.«430002_j14946486190476_3_alg».proof.Proof.Algebra

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The output array after the run, at the ideal values: every grid point writes back its tile of ONE function of the
    field the region finds, the tiled form `klap` of the stencil; the tiles fill the array. -/

open Idealize.ShloMosaic.ValueIdx Cert.Stencil

section
variable (V : (c : Dev nD) → (b : Ref sig .tc) → Buf (Elt Ideal) ((c : Thread nD τ).loc b)) (c : Dev nD) (t : Fin cfg0.N)

/-- The tiled stencil of a whole array of the windows' shape. -/
def KG (X : S4x192x192x192.Idx → EReal) : S4x192x192x192.Idx → EReal :=
  fun j => klap (fun b d h w => X (ix4 b d h w)) (j 0) (j 1) (j 2) (j 3)

/-- What the body leaves at a site of the output block at point `t`: the tiled stencil at the site's place in the
    field — the twelve stores read one after the other, then the tile placed in the field. -/
theorem out_apply (dl : Fin 24) (h w : Fin 192) :
    outAt V c t (ix4 (0 : Fin 1) dl h w)
      = klap (fld V c) (bOf t) ⟨24 * (dOf t).val + dl.val, by have := (dOf t).isLt; omega⟩ h w := by
  unfold outAt out3
  rw [View.read_writes_junk_eq_canon]
  rw [stageC c (grid0.coords t) _ _ _ _ _ _ _ _ _ _ _
    (stageB c (grid0.coords t) _ _ _ _ _ _ _ _ _ _ (stageA c _ _ _ _)) dl h w]
  exact S12_eq_klap (fld V c) (bOf t) (dOf t) _ _ _ (blk0_apply V c t) (blk1_apply V c t) (blk2_apply V c t) dl h w

/-- What point `t` writes back is its block of the tiled stencil of the shared input array. -/
theorem flushed_eq :
    (dat0 V c).flushed 3 t = ((cfg0.win 3).blk t).view.read (Elt Ideal) (KG (V c main_v0)) := by
  show (cfg0.win 3).cut (grid0.coords t) ((dat0 V c).after 3 t) = _
  rw [after_3]
  funext j
  revert j
  show ∀ j : S1x24x192x192.Idx, outAt V c t j = KG (V c main_v0) (((cfg0.win 3).blk t).view.emb j)
  intro j
  obtain ⟨a, dl, h, w, rfl⟩ : ∃ (a : Fin 1) (dl : Fin 24) (h w : Fin 192), j = ix4 a dl h w := ⟨j 0, j 1, j 2, j 3, eq_ix4 j⟩
  obtain rfl : a = 0 := Subsingleton.elim _ _
  rw [out_apply, emb3_apply]
  rfl

/-- The output array after the run is the tiled stencil of the shared input array. -/
theorem final3 : (dat0 V c).arrAt 3 cfg0.N = KG (V c main_v0) :=
  (dat0 V c).arrAt_eq_of_cover 3 _ (fun t _ => flushed_eq V c t) covered3

end

section
variable (m : (ℓ : Loc nD τ sig) → Buf (Elt Ideal) ℓ) (ρ : Dev nD → PrngReg)

/-- The result array: the output array with the unit channel axis put back is the stencil `G` of the argument, when
    every entry of the argument is a real number. -/
theorem result_eq (c : Dev nD) (hfin : ∀ i, ∃ r : ℝ, m ((c : Thread nD τ).loc main_arg0) i = (r : EReal)) :
    (broadcastInDim S4x1x192x192x192 ![0, 2, 3, 4] bcast_S4x192x192x192_S4x1x192x192x192_0_2_3_4
        ((dat0 (V1 m ρ) c).arrAt 3 cfg0.N) : (⟨S4x1x192x192x192, .f32⟩ : BufTy).Contents (Elt Ideal))
      = G (m ((c : Thread nD τ).loc main_arg0)) := by
  rw [final3]
  funext i
  obtain ⟨b, u, d, h, w, rfl⟩ : ∃ (b : Fin 4) (u : Fin 1) (d h w : Fin 192), i = ix5 b u d h w := ⟨i 0, i 1, i 2, i 3, i 4, eq_ix5 i⟩
  obtain rfl : u = 0 := Subsingleton.elim _ _
  rw [broadcastInDim_apply _ _ _ _ (ix4 b d h w) (fun a => by
    match a with
    | ⟨0, _⟩ => rfl
    | ⟨1, _⟩ => rfl
    | ⟨2, _⟩ => rfl
    | ⟨3, _⟩ => rfl)]
  have hfld : (fun b d h w => V1 m ρ c main_v0 (ix4 b d h w)) = field (m ((c : Thread nD τ).loc main_arg0)) := by
    funext b d h w
    rw [V1_main_v0]
    exact shapeCast_apply _ _ (ix4 b d h w) (ix5 b (0 : Fin 1) d h w) (by
      rw [Shape.rowMajor_val_five, Shape.rowMajor_val_four]
      show (((b.val * 1 + 0) * 192 + d.val) * 192 + h.val) * 192 + w.val = ((b.val * 192 + d.val) * 192 + h.val) * 192 + w.val
      omega)
  show klap (fun b d h w => V1 m ρ c main_v0 (ix4 b d h w)) b d h w = lap (field (m ((c : Thread nD τ).loc main_arg0))) b d h w
  rw [hfld]
  exact klap_eq_lap _ (fun b d h w => hfin _) b d h w

end

end Cert.KernelIdeal.Hand

end
-- ==== Proof.RefValue.lean ====
import proofs.«430002_j14946486190476_3_alg».proof.Proof.Spec
import proofs.«430002_j14946486190476_3_alg».proof.Proof.Gen.ReferenceIdeal.Read
import Idealize.ShloMosaic.Lib.KernelVsHost

/-! The host program's result, read site by site, is the seven-point stencil `G` of the field.

The host pads the field by one cell of the ambient value on each side of the three space axes and adds seven shifted
windows of the padded array.  A window read at a site of the box is the padded array one cell over; the padded array
at a cell is the field at the cell one step back on each space axis when the cell lies inside the box, and the
ambient value when it lies off the box on some space axis.  So the centre window is the field itself, the window
shifted down an axis is `below` along that axis and the window shifted up is `above`; the host's sum, grouped as it
groups it, is then `lap` term for term. -/

noncomputable section

namespace Cert.Stencil.Ref

open Cert.ReferenceIdeal Cert.ReferenceIdeal.Gen Cert.ReferenceIdeal.Read Idealize.ShloMosaic
  Idealize.ShloMosaic.ValueIdx Idealize.ShloMosaic.StableHlo

/-! ## The padded array at a cell -/

/-- The padded field at a cell whose three space coordinates are each one more than a site's: the field at the site. -/
theorem pad_in (x : (⟨S4x1x192x192x192, .f32⟩ : BufTy).Contents (Elt Ideal)) (j : S4x1x194x194x194.Idx)
    (b : Fin 4) (d h w : Fin 192) (h0 : (j 0).val = b.val) (h2 : (j 2).val = 1 + d.val)
    (h3 : (j 3).val = 1 + h.val) (h4 : (j 4).val = 1 + w.val) :
    val_main_v0 (F := Ideal) x j = field x b d h w := by
  have h1 : (j 1).val < 1 := (j 1).isLt
  unfold val_main_v0
  exact pad_apply_of_inside _ _ _ x _ pads_S4x1x192x192x192_S4x1x194x194x194_000_000_110_110_110 h_S_ j
    (ix5 b (0 : Fin 1) d h w) (fun a => match a with
    | ⟨0, _⟩ => by show (j 0).val = 0 + b.val * (0 + 1); omega
    | ⟨1, _⟩ => by show (j 1).val = 0 + 0 * (0 + 1); omega
    | ⟨2, _⟩ => by show (j 2).val = 1 + d.val * (0 + 1); omega
    | ⟨3, _⟩ => by show (j 3).val = 1 + h.val * (0 + 1); omega
    | ⟨4, _⟩ => by show (j 4).val = 1 + w.val * (0 + 1); omega)

/-- The padded field at a cell whose depth coordinate is off the box: the ambient value. -/
theorem pad_out2 (x : (⟨S4x1x192x192x192, .f32⟩ : BufTy).Contents (Elt Ideal)) (j : S4x1x194x194x194.Idx)
    (hj : (j 2).val = 0 ∨ (j 2).val = 193) : val_main_v0 (F := Ideal) x j = amb := by
  unfold val_main_v0
  exact pad_apply_of_not_inside _ _ _ x _ pads_S4x1x192x192x192_S4x1x194x194x194_000_000_110_110_110 h_S_ j
    ⟨2, by decide⟩ (by
      show ¬(1 ≤ (j 2).val ∧ ((j 2).val - 1) % (0 + 1) = 0 ∧ ((j 2).val - 1) / (0 + 1) < 192)
      omega)

/-- The padded field at a cell whose row coordinate is off the box: the ambient value. -/
theorem pad_out3 (x : (⟨S4x1x192x192x192, .f32⟩ : BufTy).Contents (Elt Ideal)) (j : S4x1x194x194x194.Idx)
    (hj : (j 3).val = 0 ∨ (j 3).val = 193) : val_main_v0 (F := Ideal) x j = amb := by
  unfold val_main_v0
  exact pad_apply_of_not_inside _ _ _ x _ pads_S4x1x192x192x192_S4x1x194x194x194_000_000_110_110_110 h_S_ j
    ⟨3, by decide⟩ (by
      show ¬(1 ≤ (j 3).val ∧ ((j 3).val - 1) % (0 + 1) = 0 ∧ ((j 3).val - 1) / (0 + 1) < 192)
      omega)

/-- The padded field at a cell whose column coordinate is off the box: the ambient value. -/
theorem pad_out4 (x : (⟨S4x1x192x192x192, .f32⟩ : BufTy).Contents (Elt Ideal)) (j : S4x1x194x194x194.Idx)
    (hj : (j 4).val = 0 ∨ (j 4).val = 193) : val_main_v0 (F := Ideal) x j = amb := by
  unfold val_main_v0
  exact pad_apply_of_not_inside _ _ _ x _ pads_S4x1x192x192x192_S4x1x194x194x194_000_000_110_110_110 h_S_ j
    ⟨4, by decide⟩ (by
      show ¬(1 ≤ (j 4).val ∧ ((j 4).val - 1) % (0 + 1) = 0 ∧ ((j 4).val - 1) / (0 + 1) < 192)
      omega)

/-! ## The seven windows at a site -/

/-- The centre window at a site is the field there. -/
theorem read_c (x : (⟨S4x1x192x192x192, .f32⟩ : BufTy).Contents (Elt Ideal)) (b : Fin 4) (u : Fin 1) (d h w : Fin 192) :
    val_main_v0 (F := Ideal) x (idx_main_v1 (ix5 b u d h w)) = field x b d h w :=
  pad_in x _ b d h w rfl rfl rfl rfl

/-- The window one step down the depth axis: the lower neighbour in depth, the ambient value on the first plane. -/
theorem read_dm (x : (⟨S4x1x192x192x192, .f32⟩ : BufTy).Contents (Elt Ideal)) (b : Fin 4) (u : Fin 1) (d h w : Fin 192) :
    val_main_v0 (F := Ideal) x (idx_main_v4 (ix5 b u d h w)) = below (fun k => field x b k h w) d := by
  unfold below
  split
  · next h0 => exact pad_out2 x _ (Or.inl h0)
  · next h0 => exact pad_in x _ b ⟨d.val - 1, by omega⟩ h w rfl (by show d.val = 1 + (d.val - 1); omega) rfl rfl

/-- The window one step up the depth axis: the upper neighbour in depth, the ambient value on the last plane. -/
theorem read_dp (x : (⟨S4x1x192x192x192, .f32⟩ : BufTy).Contents (Elt Ideal)) (b : Fin 4) (u : Fin 1) (d h w : Fin 192) :
    val_main_v0 (F := Ideal) x (idx_main_v5 (ix5 b u d h w)) = above (fun k => field x b k h w) d := by
  unfold above
  split
  · next h0 => exact pad_out2 x _ (Or.inr (by show 2 + d.val = 193; omega))
  · next h0 => exact pad_in x _ b ⟨d.val + 1, by omega⟩ h w rfl (by show 2 + d.val = 1 + (d.val + 1); omega) rfl rfl

/-- The window one step down the row axis: the lower neighbour in the row direction, the ambient value on the first row. -/
theorem read_hm (x : (⟨S4x1x192x192x192, .f32⟩ : BufTy).Contents (Elt Ideal)) (b : Fin 4) (u : Fin 1) (d h w : Fin 192) :
    val_main_v0 (F := Ideal) x (idx_main_v10 (ix5 b u d h w)) = below (fun k => field x b d k w) h := by
  unfold below
  split
  · next h0 => exact pad_out3 x _ (Or.inl h0)
  · next h0 => exact pad_in x _ b d ⟨h.val - 1, by omega⟩ w rfl rfl (by show h.val = 1 + (h.val - 1); omega) rfl

/-- The window one step up the row axis: the upper neighbour in the row direction, the ambient value on the last row. -/
theorem read_hp (x : (⟨S4x1x192x192x192, .f32⟩ : BufTy).Contents (Elt Ideal)) (b : Fin 4) (u : Fin 1) (d h w : Fin 192) :
    val_main_v0 (F := Ideal) x (idx_main_v11 (ix5 b u d h w)) = above (fun k => field x b d k w) h := by
  unfold above
  split
  · next h0 => exact pad_out3 x _ (Or.inr (by show 2 + h.val = 193; omega))
  · next h0 => exact pad_in x _ b d ⟨h.val + 1, by omega⟩ w rfl rfl (by show 2 + h.val = 1 + (h.val + 1); omega) rfl

/-- The window one step down the column axis: the lower neighbour along the row, the ambient value in the first column. -/
theorem read_wm (x : (⟨S4x1x192x192x192, .f32⟩ : BufTy).Contents (Elt Ideal)) (b : Fin 4) (u : Fin 1) (d h w : Fin 192) :
    val_main_v0 (F := Ideal) x (idx_main_v16 (ix5 b u d h w)) = below (fun k => field x b d h k) w := by
  unfold below
  split
  · next h0 => exact pad_out4 x _ (Or.inl h0)
  · next h0 => exact pad_in x _ b d h ⟨w.val - 1, by omega⟩ rfl rfl rfl (by show w.val = 1 + (w.val - 1); omega)

/-- The window one step up the column axis: the upper neighbour along the row, the ambient value in the last column. -/
theorem read_wp (x : (⟨S4x1x192x192x192, .f32⟩ : BufTy).Contents (Elt Ideal)) (b : Fin 4) (u : Fin 1) (d h w : Fin 192) :
    val_main_v0 (F := Ideal) x (idx_main_v17 (ix5 b u d h w)) = above (fun k => field x b d h k) w := by
  unfold above
  split
  · next h0 => exact pad_out4 x _ (Or.inr (by show 2 + w.val = 193; omega))
  · next h0 => exact pad_in x _ b d h ⟨w.val + 1, by omega⟩ rfl rfl rfl (by show 2 + w.val = 1 + (w.val + 1); omega)

/-! ## The host's result is the stencil -/

/-- The host program's result is `G` of the field: at every site the centre term, then the depth, row and column
    pairs of neighbours, each pair added first and then weighted, in the host's own grouping. -/
theorem ref_eq (x : (⟨S4x1x192x192x192, .f32⟩ : BufTy).Contents (Elt Ideal)) :
    val_main_v21 (F := Ideal) x = G x := by
  funext i
  obtain ⟨b, u, d, h, w, rfl⟩ : ∃ (b : Fin 4) (u : Fin 1) (d h w : Fin 192), i = ix5 b u d h w :=
    ⟨_, _, _, _, _, eq_ix5 i⟩
  show val_main_v21 (F := Ideal) x (ix5 b u d h w) = lap (field x) b d h w
  rw [val_main_v21_apply, val_main_v15_apply, val_main_v9_apply, val_main_v3_apply, val_main_v2_apply,
    val_main_cst_0_apply, val_main_v1_apply, val_main_v8_apply, val_main_v7_apply, val_main_cst_1_apply,
    val_main_v6_apply, val_main_v4_apply, val_main_v5_apply, val_main_v14_apply, val_main_v13_apply,
    val_main_cst_2_apply, val_main_v12_apply, val_main_v10_apply, val_main_v11_apply, val_main_v20_apply,
    val_main_v19_apply, val_main_cst_3_apply, val_main_v18_apply, val_main_v16_apply, val_main_v17_apply,
    read_c, read_dm, read_dp, read_hm, read_hp, read_wm, read_wp]
  simp only [Ideal.mulf_def, Ideal.addf_def, Ideal.ofBits_def]
  rfl

end Cert.Stencil.Ref

end
-- ==== Proof.Finite.lean ====
import proofs.«430002_j14946486190476_3_alg».proof.Pre_finite_inputs
import proofs.«430002_j14946486190476_3_alg».proof.Proof.Gen.Pre_finite_inputs
import Idealize.ShloMosaic.PureOps.Ideal
import Idealize.ShloMosaic.Lib.ReduceAll
import Idealize.ShloMosaic.Lib.ValueIdx

/-!
# From "every input is finite" to "every entry is a real number"

The precondition takes the absolute value of every entry, compares it (strictly less) with +∞, and
conjoins all the comparison bits. If the conjunction is 1 then every comparison bit is 1, so
`|x i| < ⊤` at every index; an entry `⊥` or `⊤` has `|x i| = ⊤`, so every entry is a real.
-/

noncomputable section

namespace Cert.Stencil

open Idealize.ShloMosaic

/-- The pattern `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max a (-a)` is strictly below `⊤` is a real. -/
theorem real_of_abs_lt_top (a : EReal) (h : max a (-a) < ⊤) : ∃ r : ℝ, a = (r : EReal) := by
  induction a using EReal.rec with
  | bot => simp at h
  | coe r => exact ⟨r, rfl⟩
  | top => simp at h

theorem finite_of_pre [hPre : Cert.Pre_finite_inputs.Facts]
    (x : (⟨Cert.Pre_finite_inputs.S4x1x192x192x192, .f32⟩ : Idealize.ShloMosaic.BufTy).Contents (Idealize.ShloMosaic.Elt Idealize.ShloMosaic.Ideal))
    (h : Cert.Pre_finite_inputs.fn (F := Idealize.ShloMosaic.Ideal) x = (fun _ => 1#1)) :
    ∀ i, ∃ r : ℝ, x i = (r : EReal) := by
  intro i
  have h0 := congrFun h ValueIdx.ix0
  dsimp only [Cert.Pre_finite_inputs.fn] at h0
  haveI : Subsingleton Cert.Pre_finite_inputs.S_.Idx := ⟨fun a b => funext fun d => d.elim0⟩
  have hi := Host.reduce_andi_all _ _ _ _ _ h0 i
  have hlt : max (x i) (-(x i)) < (⊤ : EReal) := by
    have hc : Ideal.cmp CmpFPredicate.olt (max (x i) (-(x i))) (Ideal.ofBits .f32 0x7F800000#32) = 1#1 := hi
    rw [ofBits_inf] at hc
    by_contra hn
    simp [Ideal.cmp, hn] at hc
  exact real_of_abs_lt_top (x i) hlt

end Cert.Stencil

end
-- ==== Proof.lean ====
/- The seven-point Laplacian with a constant (ambient) halo on a 4 × 192 × 192 × 192 field, tiled along depth, against
   the same stencil computed on the host from the padded field.

   The tiled program splits the depth axis into eight tiles of 24 planes.  At a grid point it reads the tile, the one
   plane below it and the one plane above it (three windows on ONE array), and accumulates into the output tile, store by
   store: the centre term and the four in-plane neighbours taken CYCLICALLY (a rotation along the axis), the two depth
   neighbours (inside the tile from the tile itself; at the tile's ends from the neighbouring plane, or the ambient value
   at the field's ends), and on the four in-plane faces the correction `wt · (amb − wrapped)` that trades the
   neighbour wrapped around the end for the ambient value.  The host program pads the field with the ambient value and
   adds the six shifted copies.  On a field of real numbers both are `cc · x + wt · Σ neighbours`: the correction
   cancels the wrapped term (`wt·y + wt·(amb − y) = wt·amb`, which needs `y` finite — the one use of the precondition)
   and the sums differ only in order and grouping.

   `frame_*`: each program runs to the end, faults nowhere and leaves its argument as launched — for the two tiled
   programs by the run of their one region between its two host operations, for the host program by its run.
   `preserves`: the idealization rewrote nothing.  `algebraic`: the tiled program's result array is `G` of the
   argument (the twelve stores read at a site, the tile placed in the field, the tiles filling the array, the algebra),
   and so is the host program's (its stages read at an index). -/
import proofs.«430002_j14946486190476_3_alg».proof.Defs
import proofs.«430002_j14946486190476_3_alg».proof.Proof.Gen.Kernel
import proofs.«430002_j14946486190476_3_alg».proof.Proof.Gen.KernelIdeal
import proofs.«430002_j14946486190476_3_alg».proof.Proof.Gen.ReferenceIdeal
import proofs.«430002_j14946486190476_3_alg».proof.Proof.Gen.Pre_finite_inputs
import proofs.«430002_j14946486190476_3_alg».proof.Proof.Gen.ReferenceIdeal.Run
import proofs.«430002_j14946486190476_3_alg».proof.Proof.Gen.ReferenceIdeal.Read
import proofs.«430002_j14946486190476_3_alg».proof.Proof.KB.Run
import proofs.«430002_j14946486190476_3_alg».proof.Proof.KI.Run
import proofs.«430002_j14946486190476_3_alg».proof.Proof.KI.Value
import proofs.«430002_j14946486190476_3_alg».proof.Proof.RefValue
import proofs.«430002_j14946486190476_3_alg».proof.Proof.Finite
import Idealize.ShloMosaic.Adequacy
import Idealize.ShloMosaic.Init

noncomputable section

namespace Cert.Proof

open Idealize.ShloMosaic Idealize.ShloMosaic.TcCoe Idealize.SL.Sem

/-- The word-level program runs and leaves its argument as launched. -/
theorem frame_k : Cert.frame_Kernel := fun m ρ _ =>
  (θ_run (Cert.Kernel.defs (F := Bits)) _ _).mono (fun _ h c => (h c).2) (Cert.Kernel.Hand.run_main (F := Bits) m ρ)

/-- So does the idealized program. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- So does the host program. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- On a finite field the two programs end with the same array: the stencil `G` of the argument. -/
theorem algebraic : Cert.algebraic_KernelIdeal_ReferenceIdeal := by
  intro m ρ m' ρ' hpre hagree
  refine ⟨fun c => Cert.Stencil.G (m ((c.tc : Thread Cert.KernelIdeal.nD Cert.KernelIdeal.τ).loc Cert.KernelIdeal.main_arg0)), ?_, ?_⟩
  · refine (θ_run (Cert.KernelIdeal.defs (F := Ideal)) _ _).mono (fun r h c => ⟨(h c).1.trans ?_, (h c).2⟩)
      (Cert.KernelIdeal.Hand.run_main (F := Ideal) m ρ)
    exact Cert.KernelIdeal.Hand.result_eq m ρ c (Cert.Stencil.finite_of_pre _ (hpre c))
  · refine (θ_run (Cert.ReferenceIdeal.defs (F := Ideal)) _ _).mono (fun r h c => ⟨(h c).1.trans ?_, (h c).2⟩)
      (Cert.ReferenceIdeal.Value.run (F := Ideal) m' ρ')
    rw [Cert.ReferenceIdeal.Read.val_main_v21_eq, Cert.Stencil.Ref.ref_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
